-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x1024x1024 : Shape := ⟨4, ![16, 2, 1024, 1024]⟩
abbrev S_ : Shape := ⟨0, ![]⟩

class Facts : Prop where
  bcast_S_S16x2x1024x1024 : S_.BroadcastsInDim S16x2x1024x1024 (![] : Fin 0 → Fin S16x2x1024x1024.rank)
  reducesTo_S16x2x1024x1024_S_d0_1_2_3 : S16x2x1024x1024.ReducesTo [0, 1, 2, 3] S_
  h_S_ : 0 < S_.numel

variable [Facts]

def fn {F : FTy → Type} [FloatOps F] (main_arg0 : FVec F S16x2x1024x1024 .f32) : IVec S_ 1 :=
  let main_v0 : FVec F S16x2x1024x1024 .f32 := Host.absf main_arg0
  let main_cst : FVec F S_ .f32 := constant S_ .f32 0x7F800000#32
  let main_v1 : FVec F S16x2x1024x1024 .f32 := broadcastInDim S16x2x1024x1024 ![] bcast_S_S16x2x1024x1024 main_cst
  let main_v2 : IVec S16x2x1024x1024 1 := cmpf .olt main_v0 main_v1
  let main_c : IVec S_ 1 := constantI S_ 1 1#1
  let main_v3 : IVec S_ 1 := (fun x v => Host.reduce IntOp.andi x v reducesTo_S16x2x1024x1024_S_d0_1_2_3 h_S_) main_v2 main_c
  main_v3
-- ==== Kernel.lean ====
abbrev S16x2x1024x1024 : Shape := ⟨4, ![16, 2, 1024, 1024]⟩
abbrev S16x1x1024x1024 : Shape := ⟨4, ![16, 1, 1024, 1024]⟩
abbrev S1x2x1024x1024 : Shape := ⟨4, ![1, 2, 1024, 1024]⟩
abbrev S1x1x1024x1024 : Shape := ⟨4, ![1, 1, 1024, 1024]⟩
abbrev S1032x1024 : Shape := ⟨2, ![1032, 1024]⟩
abbrev S1x1024 : Shape := ⟨2, ![1, 1024]⟩
abbrev S1x1x128x1024 : Shape := ⟨4, ![1, 1, 128, 1024]⟩
abbrev S128x1024 : Shape := ⟨2, ![128, 1024]⟩
abbrev S130x1024 : Shape := ⟨2, ![130, 1024]⟩
abbrev S130x1 : Shape := ⟨2, ![130, 1]⟩
abbrev S130x1025 : Shape := ⟨2, ![130, 1025]⟩
abbrev S130x1026 : Shape := ⟨2, ![130, 1026]⟩

abbrev nBuf : Space → Nat
  | .hbm => 2
  | .vmem => 6
  | .smem => 0
  | _ => 0

abbrev bufTy : (tb : Table) → Fin (tcTables nBuf tb) → BufTy
  | .hbm, ⟨0, _⟩ => ⟨S16x2x1024x1024, .f32⟩
  | .hbm, ⟨1, _⟩ => ⟨S16x1x1024x1024, .f32⟩
  | .local _ .vmem, ⟨0, _⟩ => ⟨S1x2x1024x1024, .f32⟩
  | .local _ .vmem, ⟨1, _⟩ => ⟨S1x2x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1032x1024, .f32⟩
  | .local _ .vmem, ⟨5, _⟩ => ⟨S1032x1024, .f32⟩
  | _, _ => ⟨S16x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1032x1024_S1x1024_0_0 : ∀ a, (![0, 0] : Fin 2 → Nat) a + S1x1024.size a ≤ S1032x1024.size a
  h_S1x1024 : 0 < S1x1024.numel
  shapeCasts_S1x1024_S1x1024 : S1x1024.ShapeCasts S1x1024
  inb_S1032x1024_S1x1024_1025_0 : ∀ a, (![1025, 0] : Fin 2 → Nat) a + S1x1024.size a ≤ S1032x1024.size a
  inb_S1x2x1024x1024_S1x1x128x1024_0_0_0_0 : ∀ a, (![0, 0, 0, 0] : Fin 4 → Nat) a + S1x1x128x1024.size a ≤ S1x2x1024x1024.size a
  h_S1x1x128x1024 : 0 < S1x1x128x1024.numel
  shapeCasts_S1x1x128x1024_S128x1024 : S1x1x128x1024.ShapeCasts S128x1024
  inb_S1x2x1024x1024_S1x1x128x1024_0_1_0_0 : ∀ a, (![0, 1, 0, 0] : Fin 4 → Nat) a + S1x1x128x1024.size a ≤ S1x2x1024x1024.size a
  inb_S1032x1024_S128x1024_1_0 : ∀ a, (![1, 0] : Fin 2 → Nat) a + S128x1024.size a ≤ S1032x1024.size a
  h_S128x1024 : 0 < S128x1024.numel
  shapeCasts_S128x1024_S128x1024 : S128x1024.ShapeCasts S128x1024
  inb_S1x2x1024x1024_S1x1x128x1024_0_0_128_0 : ∀ a, (![0, 0, 128, 0] : Fin 4 → Nat) a + S1x1x128x1024.size a ≤ S1x2x1024x1024.size a
  inb_S1x2x1024x1024_S1x1x128x1024_0_1_128_0 : ∀ a, (![0, 1, 128, 0] : Fin 4 → Nat) a + S1x1x128x1024.size a ≤ S1x2x1024x1024.size a
  inb_S1032x1024_S128x1024_129_0 : ∀ a, (![129, 0] : Fin 2 → Nat) a + S128x1024.size a ≤ S1032x1024.size a
  inb_S1x2x1024x1024_S1x1x128x1024_0_0_256_0 : ∀ a, (![0, 0, 256, 0] : Fin 4 → Nat) a + S1x1x128x1024.size a ≤ S1x2x1024x1024.size a
  inb_S1x2x1024x1024_S1x1x128x1024_0_1_256_0 : ∀ a, (![0, 1, 256, 0] : Fin 4 → Nat) a + S1x1x128x1024.size a ≤ S1x2x1024x1024.size a
  inb_S1032x1024_S128x1024_257_0 : ∀ a, (![257, 0] : Fin 2 → Nat) a + S128x1024.size a ≤ S1032x1024.size a
  inb_S1x2x1024x1024_S1x1x128x1024_0_0_384_0 : ∀ a, (![0, 0, 384, 0] : Fin 4 → Nat) a + S1x1x128x1024.size a ≤ S1x2x1024x1024.size a
  inb_S1x2x1024x1024_S1x1x128x1024_0_1_384_0 : ∀ a, (![0, 1, 384, 0] : Fin 4 → Nat) a + S1x1x128x1024.size a ≤ S1x2x1024x1024.size a
  inb_S1032x1024_S128x1024_385_0 : ∀ a, (![385, 0] : Fin 2 → Nat) a + S128x1024.size a ≤ S1032x1024.size a
  inb_S1x2x1024x1024_S1x1x128x1024_0_0_512_0 : ∀ a, (![0, 0, 512, 0] : Fin 4 → Nat) a + S1x1x128x1024.size a ≤ S1x2x1024x1024.size a
  inb_S1x2x1024x1024_S1x1x128x1024_0_1_512_0 : ∀ a, (![0, 1, 512, 0] : Fin 4 → Nat) a + S1x1x128x1024.size a ≤ S1x2x1024x1024.size a
  inb_S1032x1024_S128x1024_513_0 : ∀ a, (![513, 0] : Fin 2 → Nat) a + S128x1024.size a ≤ S1032x1024.size a
  inb_S1x2x1024x1024_S1x1x128x1024_0_0_640_0 : ∀ a, (![0, 0, 640, 0] : Fin 4 → Nat) a + S1x1x128x1024.size a ≤ S1x2x1024x1024.size a
  inb_S1x2x1024x1024_S1x1x128x1024_0_1_640_0 : ∀ a, (![0, 1, 640, 0] : Fin 4 → Nat) a + S1x1x128x1024.size a ≤ S1x2x1024x1024.size a
  inb_S1032x1024_S128x1024_641_0 : ∀ a, (![641, 0] : Fin 2 → Nat) a + S128x1024.size a ≤ S1032x1024.size a
  inb_S1x2x1024x1024_S1x1x128x1024_0_0_768_0 : ∀ a, (![0, 0, 768, 0] : Fin 4 → Nat) a + S1x1x128x1024.size a ≤ S1x2x1024x1024.size a
  inb_S1x2x1024x1024_S1x1x128x1024_0_1_768_0 : ∀ a, (![0, 1, 768, 0] : Fin 4 → Nat) a + S1x1x128x1024.size a ≤ S1x2x1024x1024.size a
  inb_S1032x1024_S128x1024_769_0 : ∀ a, (![769, 0] : Fin 2 → Nat) a + S128x1024.size a ≤ S1032x1024.size a
  inb_S1x2x1024x1024_S1x1x128x1024_0_0_896_0 : ∀ a, (![0, 0, 896, 0] : Fin 4 → Nat) a + S1x1x128x1024.size a ≤ S1x2x1024x1024.size a
  inb_S1x2x1024x1024_S1x1x128x1024_0_1_896_0 : ∀ a, (![0, 1, 896, 0] : Fin 4 → Nat) a + S1x1x128x1024.size a ≤ S1x2x1024x1024.size a
  inb_S1032x1024_S128x1024_897_0 : ∀ a, (![897, 0] : Fin 2 → Nat) a + S128x1024.size a ≤ S1032x1024.size a
  inb_S1032x1024_S130x1024_0_0 : ∀ a, (![0, 0] : Fin 2 → Nat) a + S130x1024.size a ≤ S1032x1024.size a
  h_S130x1024 : 0 < S130x1024.numel
  concatenates_S130x1_S130x1024_S130x1025_d1 : Shape.Concatenates [S130x1, S130x1024] S130x1025 1
  concatenates_S130x1025_S130x1_S130x1026_d1 : Shape.Concatenates [S130x1025, S130x1] S130x1026 1
  slices_S130x1026_o0_0_S128x1024 : S130x1026.Slices ![0, 0] S128x1024
  slices_S130x1026_o0_1_S128x1024 : S130x1026.Slices ![0, 1] S128x1024
  slices_S130x1026_o0_2_S128x1024 : S130x1026.Slices ![0, 2] S128x1024
  slices_S130x1026_o1_0_S128x1024 : S130x1026.Slices ![1, 0] S128x1024
  slices_S130x1026_o1_2_S128x1024 : S130x1026.Slices ![1, 2] S128x1024
  slices_S130x1026_o2_0_S128x1024 : S130x1026.Slices ![2, 0] S128x1024
  slices_S130x1026_o2_1_S128x1024 : S130x1026.Slices ![2, 1] S128x1024
  slices_S130x1026_o2_2_S128x1024 : S130x1026.Slices ![2, 2] S128x1024
  inb_S1032x1024_S130x1024_128_0 : ∀ a, (![128, 0] : Fin 2 → Nat) a + S130x1024.size a ≤ S1032x1024.size a
  inb_S1032x1024_S130x1024_256_0 : ∀ a, (![256, 0] : Fin 2 → Nat) a + S130x1024.size a ≤ S1032x1024.size a
  inb_S1032x1024_S130x1024_384_0 : ∀ a, (![384, 0] : Fin 2 → Nat) a + S130x1024.size a ≤ S1032x1024.size a
  inb_S1032x1024_S130x1024_512_0 : ∀ a, (![512, 0] : Fin 2 → Nat) a + S130x1024.size a ≤ S1032x1024.size a
  inb_S1032x1024_S130x1024_640_0 : ∀ a, (![640, 0] : Fin 2 → Nat) a + S130x1024.size a ≤ S1032x1024.size a
  inb_S1032x1024_S130x1024_768_0 : ∀ a, (![768, 0] : Fin 2 → Nat) a + S130x1024.size a ≤ S1032x1024.size a
  inb_S1032x1024_S130x1024_896_0 : ∀ a, (![896, 0] : Fin 2 → Nat) a + S130x1024.size a ≤ S1032x1024.size a
  slices_S130x1026_o1_1_S128x1024 : S130x1026.Slices ![1, 1] S128x1024
  inb_S1x1x1024x1024_S1x1x128x1024_0_0_0_0 : ∀ a, (![0, 0, 0, 0] : Fin 4 → Nat) a + S1x1x128x1024.size a ≤ S1x1x1024x1024.size a
  shapeCasts_S128x1024_S1x1x128x1024 : S128x1024.ShapeCasts S1x1x128x1024
  inb_S1x1x1024x1024_S1x1x128x1024_0_0_128_0 : ∀ a, (![0, 0, 128, 0] : Fin 4 → Nat) a + S1x1x128x1024.size a ≤ S1x1x1024x1024.size a
  inb_S1x1x1024x1024_S1x1x128x1024_0_0_256_0 : ∀ a, (![0, 0, 256, 0] : Fin 4 → Nat) a + S1x1x128x1024.size a ≤ S1x1x1024x1024.size a
  inb_S1x1x1024x1024_S1x1x128x1024_0_0_384_0 : ∀ a, (![0, 0, 384, 0] : Fin 4 → Nat) a + S1x1x128x1024.size a ≤ S1x1x1024x1024.size a
  inb_S1x1x1024x1024_S1x1x128x1024_0_0_512_0 : ∀ a, (![0, 0, 512, 0] : Fin 4 → Nat) a + S1x1x128x1024.size a ≤ S1x1x1024x1024.size a
  inb_S1x1x1024x1024_S1x1x128x1024_0_0_640_0 : ∀ a, (![0, 0, 640, 0] : Fin 4 → Nat) a + S1x1x128x1024.size a ≤ S1x1x1024x1024.size a
  inb_S1x1x1024x1024_S1x1x128x1024_0_0_768_0 : ∀ a, (![0, 0, 768, 0] : Fin 4 → Nat) a + S1x1x128x1024.size a ≤ S1x1x1024x1024.size a
  inb_S1x1x1024x1024_S1x1x128x1024_0_0_896_0 : ∀ a, (![0, 0, 896, 0] : Fin 4 → Nat) a + S1x1x128x1024.size a ≤ S1x1x1024x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x1024.size a ≤ S16x2x1024x1024.size a
  hwx0_0 : ∀ i : grid0.Coords, EltTy.bits .f32 = 32 ∨ (Rect.block (s := S16x2x1024x1024) S1x2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .f32 = 32 ∨ (Rect.block (s := S16x1x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2x1024x1024 : Shape := ⟨4, ![16, 2, 1024, 1024]⟩
abbrev S16x1x1024x1024 : Shape := ⟨4, ![16, 1, 1024, 1024]⟩
abbrev S16x1024x1024 : Shape := ⟨3, ![16, 1024, 1024]⟩
abbrev S_ : Shape := ⟨0, ![]⟩
abbrev S16x1026x1026 : Shape := ⟨3, ![16, 1026, 1026]⟩

abbrev nBuf : Space → Nat
  | .hbm => 97
  | .vmem => 0
  | .smem => 0
  | _ => 0

abbrev bufTy : (tb : Table) → Fin (tcTables nBuf tb) → BufTy
  | .hbm, ⟨0, _⟩ => ⟨S16x2x1024x1024, .f32⟩
  | .hbm, ⟨1, _⟩ => ⟨S16x1x1024x1024, .f32⟩
  | .hbm, ⟨2, _⟩ => ⟨S16x1024x1024, .f32⟩
  | .hbm, ⟨3, _⟩ => ⟨S16x1x1024x1024, .f32⟩
  | .hbm, ⟨4, _⟩ => ⟨S16x1024x1024, .f32⟩
  | .hbm, ⟨5, _⟩ => ⟨S16x1024x1024, .f32⟩
  | .hbm, ⟨6, _⟩ => ⟨S_, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024x1024, .f32⟩
  | .hbm, ⟨11, _⟩ => ⟨S16x1024x1024, .f32⟩
  | .hbm, ⟨12, _⟩ => ⟨S_, .i32⟩
  | .hbm, ⟨13, _⟩ => ⟨S_, .f32⟩
  | .hbm, ⟨14, _⟩ => ⟨S16x1026x1026, .f32⟩
  | .hbm, ⟨15, _⟩ => ⟨S_, .f32⟩
  | .hbm, ⟨16, _⟩ => ⟨S16x1024x1024, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16x1024x1024, .f32⟩
  | .hbm, ⟨21, _⟩ => ⟨S16x1024x1024, .f32⟩
  | .hbm, ⟨22, _⟩ => ⟨S_, .f32⟩
  | .hbm, ⟨23, _⟩ => ⟨S16x1024x1024, .f32⟩
  | .hbm, ⟨24, _⟩ => ⟨S16x1024x1024, .f32⟩
  | .hbm, ⟨25, _⟩ => ⟨S16x1024x1024, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16x1024x1024, .f32⟩
  | .hbm, ⟨30, _⟩ => ⟨S16x1024x1024, .f32⟩
  | .hbm, ⟨31, _⟩ => ⟨S_, .f32⟩
  | .hbm, ⟨32, _⟩ => ⟨S16x1024x1024, .f32⟩
  | .hbm, ⟨33, _⟩ => ⟨S16x1024x1024, .f32⟩
  | .hbm, ⟨34, _⟩ => ⟨S16x1024x1024, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S16x1024x1024, .f32⟩
  | .hbm, ⟨39, _⟩ => ⟨S16x1024x1024, .f32⟩
  | .hbm, ⟨40, _⟩ => ⟨S_, .f32⟩
  | .hbm, ⟨41, _⟩ => ⟨S16x1024x1024, .f32⟩
  | .hbm, ⟨42, _⟩ => ⟨S16x1024x1024, .f32⟩
  | .hbm, ⟨43, _⟩ => ⟨S16x1024x1024, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S16x1024x1024, .f32⟩
  | .hbm, ⟨48, _⟩ => ⟨S16x1024x1024, .f32⟩
  | .hbm, ⟨49, _⟩ => ⟨S_, .f32⟩
  | .hbm, ⟨50, _⟩ => ⟨S16x1024x1024, .f32⟩
  | .hbm, ⟨51, _⟩ => ⟨S16x1024x1024, .f32⟩
  | .hbm, ⟨52, _⟩ => ⟨S16x1024x1024, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S16x1024x1024, .f32⟩
  | .hbm, ⟨57, _⟩ => ⟨S16x1024x1024, .f32⟩
  | .hbm, ⟨58, _⟩ => ⟨S_, .f32⟩
  | .hbm, ⟨59, _⟩ => ⟨S16x1024x1024, .f32⟩
  | .hbm, ⟨60, _⟩ => ⟨S16x1024x1024, .f32⟩
  | .hbm, ⟨61, _⟩ => ⟨S16x1024x1024, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S16x1024x1024, .f32⟩
  | .hbm, ⟨66, _⟩ => ⟨S16x1024x1024, .f32⟩
  | .hbm, ⟨67, _⟩ => ⟨S_, .f32⟩
  | .hbm, ⟨68, _⟩ => ⟨S16x1024x1024, .f32⟩
  | .hbm, ⟨69, _⟩ => ⟨S16x1024x1024, .f32⟩
  | .hbm, ⟨70, _⟩ => ⟨S16x1024x1024, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S16x1024x1024, .f32⟩
  | .hbm, ⟨75, _⟩ => ⟨S16x1024x1024, .f32⟩
  | .hbm, ⟨76, _⟩ => ⟨S_, .f32⟩
  | .hbm, ⟨77, _⟩ => ⟨S16x1024x1024, .f32⟩
  | .hbm, ⟨78, _⟩ => ⟨S16x1024x1024, .f32⟩
  | .hbm, ⟨79, _⟩ => ⟨S16x1024x1024, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S16x1024x1024, .f32⟩
  | .hbm, ⟨84, _⟩ => ⟨S16x1024x1024, .f32⟩
  | .hbm, ⟨85, _⟩ => ⟨S_, .f32⟩
  | .hbm, ⟨86, _⟩ => ⟨S16x1024x1024, .f32⟩
  | .hbm, ⟨87, _⟩ => ⟨S16x1024x1024, .f32⟩
  | .hbm, ⟨88, _⟩ => ⟨S16x1024x1024, .f32⟩
  | .hbm, ⟨89, _⟩ => ⟨S_, .f32⟩
  | .hbm, ⟨90, _⟩ => ⟨S16x1024x1024, .f32⟩
  | .hbm, ⟨91, _⟩ => ⟨S16x1024x1024, .f32⟩
  | .hbm, ⟨92, _⟩ => ⟨S_, .f32⟩
  | .hbm, ⟨93, _⟩ => ⟨S_, .f32⟩
  | .hbm, ⟨94, _⟩ => ⟨S16x1024x1024, .f32⟩
  | .hbm, ⟨95, _⟩ => ⟨S16x1024x1024, .f32⟩
  | .hbm, ⟨96, _⟩ => ⟨S16x1x1024x1024, .f32⟩
  | _, _ => ⟨S16x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_c : Ref sig .tc := ⟨.hbm, 12, rfl⟩
abbrev main_call1_v0 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_c_5 : Ref sig .tc := ⟨.hbm, 27, rfl⟩
abbrev main_c_6 : Ref sig .tc := ⟨.hbm, 28, rfl⟩
abbrev main_v14 : Ref sig .tc := ⟨.hbm, 29, rfl⟩
abbrev main_v15 : Ref sig .tc := ⟨.hbm, 30, rfl⟩
abbrev main_call3_cst : Ref sig .tc := ⟨.hbm, 31, rfl⟩
abbrev main_call3_v0 : Ref sig .tc := ⟨.hbm, 32, rfl⟩
abbrev main_v16 : Ref sig .tc := ⟨.hbm, 33, rfl⟩
abbrev main_v17 : Ref sig .tc := ⟨.hbm, 34, rfl⟩
abbrev main_c_7 : Ref sig .tc := ⟨.hbm, 35, rfl⟩
abbrev main_c_8 : Ref sig .tc := ⟨.hbm, 36, rfl⟩
abbrev main_c_9 : Ref sig .tc := ⟨.hbm, 37, rfl⟩
abbrev main_v18 : Ref sig .tc := ⟨.hbm, 38, rfl⟩
abbrev main_v19 : Ref sig .tc := ⟨.hbm, 39, rfl⟩
abbrev main_call4_cst : Ref sig .tc := ⟨.hbm, 40, rfl⟩
abbrev main_call4_v0 : Ref sig .tc := ⟨.hbm, 41, rfl⟩
abbrev main_v20 : Ref sig .tc := ⟨.hbm, 42, rfl⟩
abbrev main_v21 : Ref sig .tc := ⟨.hbm, 43, rfl⟩
abbrev main_c_10 : Ref sig .tc := ⟨.hbm, 44, rfl⟩
abbrev main_c_11 : Ref sig .tc := ⟨.hbm, 45, rfl⟩
abbrev main_c_12 : Ref sig .tc := ⟨.hbm, 46, rfl⟩
abbrev main_v22 : Ref sig .tc := ⟨.hbm, 47, rfl⟩
abbrev main_v23 : Ref sig .tc := ⟨.hbm, 48, rfl⟩
abbrev main_call5_cst : Ref sig .tc := ⟨.hbm, 49, rfl⟩
abbrev main_call5_v0 : Ref sig .tc := ⟨.hbm, 50, rfl⟩
abbrev main_v24 : Ref sig .tc := ⟨.hbm, 51, rfl⟩
abbrev main_v25 : Ref sig .tc := ⟨.hbm, 52, rfl⟩
abbrev main_c_13 : Ref sig .tc := ⟨.hbm, 53, rfl⟩
abbrev main_c_14 : Ref sig .tc := ⟨.hbm, 54, rfl⟩
abbrev main_c_15 : Ref sig .tc := ⟨.hbm, 55, rfl⟩
abbrev main_v26 : Ref sig .tc := ⟨.hbm, 56, rfl⟩
abbrev main_v27 : Ref sig .tc := ⟨.hbm, 57, rfl⟩
abbrev main_call6_cst : Ref sig .tc := ⟨.hbm, 58, rfl⟩
abbrev main_call6_v0 : Ref sig .tc := ⟨.hbm, 59, rfl⟩
abbrev main_v28 : Ref sig .tc := ⟨.hbm, 60, rfl⟩
abbrev main_v29 : Ref sig .tc := ⟨.hbm, 61, rfl⟩
abbrev main_c_16 : Ref sig .tc := ⟨.hbm, 62, rfl⟩
abbrev main_c_17 : Ref sig .tc := ⟨.hbm, 63, rfl⟩
abbrev main_c_18 : Ref sig .tc := ⟨.hbm, 64, rfl⟩
abbrev main_v30 : Ref sig .tc := ⟨.hbm, 65, rfl⟩
abbrev main_v31 : Ref sig .tc := ⟨.hbm, 66, rfl⟩
abbrev main_call7_cst : Ref sig .tc := ⟨.hbm, 67, rfl⟩
abbrev main_call7_v0 : Ref sig .tc := ⟨.hbm, 68, rfl⟩
abbrev main_v32 : Ref sig .tc := ⟨.hbm, 69, rfl⟩
abbrev main_v33 : Ref sig .tc := ⟨.hbm, 70, rfl⟩
abbrev main_c_19 : Ref sig .tc := ⟨.hbm, 71, rfl⟩
abbrev main_c_20 : Ref sig .tc := ⟨.hbm, 72, rfl⟩
abbrev main_c_21 : Ref sig .tc := ⟨.hbm, 73, rfl⟩
abbrev main_v34 : Ref sig .tc := ⟨.hbm, 74, rfl⟩
abbrev main_v35 : Ref sig .tc := ⟨.hbm, 75, rfl⟩
abbrev main_call8_cst : Ref sig .tc := ⟨.hbm, 76, rfl⟩
abbrev main_call8_v0 : Ref sig .tc := ⟨.hbm, 77, rfl⟩
abbrev main_v36 : Ref sig .tc := ⟨.hbm, 78, rfl⟩
abbrev main_v37 : Ref sig .tc := ⟨.hbm, 79, rfl⟩
abbrev main_c_22 : Ref sig .tc := ⟨.hbm, 80, rfl⟩
abbrev main_c_23 : Ref sig .tc := ⟨.hbm, 81, rfl⟩
abbrev main_c_24 : Ref sig .tc := ⟨.hbm, 82, rfl⟩
abbrev main_v38 : Ref sig .tc := ⟨.hbm, 83, rfl⟩
abbrev main_v39 : Ref sig .tc := ⟨.hbm, 84, rfl⟩
abbrev main_call9_cst : Ref sig .tc := ⟨.hbm, 85, rfl⟩
abbrev main_call9_v0 : Ref sig .tc := ⟨.hbm, 86, rfl⟩
abbrev main_v40 : Ref sig .tc := ⟨.hbm, 87, rfl⟩
abbrev main_v41 : Ref sig .tc := ⟨.hbm, 88, rfl⟩
abbrev main_cst_25 : Ref sig .tc := ⟨.hbm, 89, rfl⟩
abbrev main_v42 : Ref sig .tc := ⟨.hbm, 90, rfl⟩
abbrev main_v43 : Ref sig .tc := ⟨.hbm, 91, rfl⟩
abbrev main_cst_26 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩

abbrev nD : Nat := 1
abbrev τ : Topo := Topo.v7x

variable {F : FTy → Type} [FloatOps F]

class Facts₀ : Prop where
  slices_S16x2x1024x1024_S16x1x1024x1024_0_1_0_0 : S16x2x1024x1024.Slices ![0, 1, 0, 0] S16x1x1024x1024
  shapeCasts_S16x1x1024x1024_S16x1024x1024 : S16x1x1024x1024.ShapeCasts S16x1024x1024
  slices_S16x2x1024x1024_S16x1x1024x1024_0_0_0_0 : S16x2x1024x1024.Slices ![0, 0, 0, 0] S16x1x1024x1024
  bcast_S_S16x1024x1024 : S_.BroadcastsInDim S16x1024x1024 (![] : Fin 0 → Fin S16x1024x1024.rank)
  pads_S16x1024x1024_S16x1026x1026_000_110_110 : S16x1024x1024.Pads (![0, 1, 1] : Fin 3 → Nat) ![0, 1, 1] ![0, 0, 0] S16x1026x1026
  h_S_ : 0 < S_.numel
  sliceFits_S16x1026x1026_S16x1024x1024 : S16x1026x1026.Slices (fun _ => 0) S16x1024x1024
  bcast_S_S_ : S_.BroadcastsInDim S_ (![] : Fin 0 → Fin S_.rank)
  reduceWindows_S16x1024x1024_S16x1024x1024_w1s1p0_0_w3s1p1_1_w3s1p1_1 : S16x1024x1024.ReduceWindows (![1, 3, 3] : Fin 3 → Nat) ![1, 1, 1] ![0, 1, 1] ![0, 1, 1] S16x1024x1024
  bcast_S16x1024x1024_S16x1x1024x1024_0_2_3 : S16x1024x1024.BroadcastsInDim S16x1x1024x1024 (![0, 2, 3] : Fin 3 → Fin S16x1x1024x1024.rank)

variable [Facts₀]

class Facts : Prop extends Facts₀ where

variable [Facts]
-- ==== Proof.StencilSpec.lean ====
/-
  The stencil both programs compute, stated once on the extended reals over natural-number coordinates.

  For one image (two planes `x0`, `x1` of 1024 × 1024 entries):
    xp   = max (x1 − x0 − ε) 0                                   (the thresholded difference)
    nms  = 1 · ∏ over the 8 neighbours n of max (xp − pad₀ xp n) 0 · 256   (pad₀: zero outside the image)
    m9   = the maximum of pad₋∞ nms over the 3 × 3 window, folded from −∞ in row-major order
    out  = xp · m9
  A plane is a total function of two naturals; `padAt z f` reads `f` in coordinates shifted by one,
  and is `z` on the one-entry border around the image.  The literals ε, 0, 1, 256 stay as the words
  both programs print; they are never evaluated.
-/
import Idealize.ShloMosaic.PureOps.Ideal
import Idealize.ShloMosaic.PureOps.Ideal.Laws
import Idealize.ShloMosaic.Lib.ValueIdx

noncomputable section

namespace Cert.Stencil

open Idealize.ShloMosaic Idealize.ShloMosaic.ValueIdx

/-- A plane of extended reals indexed by row and column. -/
abbrev Plane := ℕ → ℕ → EReal

/-- The word both programs print for the zero a difference is clipped at. -/
def zeroW : EReal := Ideal.ofBits .f32 0x00000000#32
/-- The threshold ε, the binary32 nearest to one tenth, as both programs print it. -/
def epsW : EReal := Ideal.ofBits .f32 0x3DCCCCCD#32
/-- The word of the constant the running product starts from. -/
def oneW : EReal := Ideal.ofBits .f32 0x3F800000#32
/-- The word of the final scale 256. -/
def scaleW : EReal := Ideal.ofBits .f32 0x43800000#32

theorem zeroW_eq : zeroW = 0 := Ideal.ofBits_zero_f32

/-- Clipping below at zero. -/
def relu (a : EReal) : EReal := max a zeroW

/-- The thresholded difference of the two planes. -/
def xpAt (x0 x1 : Plane) : Plane := fun r q => relu (x1 r q - x0 r q - epsW)

/-- `f` surrounded by a border of `z`: entry `(R, Q)` of the 1026 × 1026 padded plane. -/
def padAt (z : EReal) (f : Plane) : Plane := fun R Q =>
  if 1 ≤ Q ∧ Q ≤ 1024 then (if 1 ≤ R ∧ R ≤ 1024 then f (R - 1) (Q - 1) else z) else z

/-- The product over the eight neighbours of the clipped differences to the centre, times 256. -/
def nmsAt (xp : Plane) : Plane := fun r q =>
  ((((((((oneW * relu (xp r q - padAt 0 xp r q)) * relu (xp r q - padAt 0 xp r (q + 1)))
    * relu (xp r q - padAt 0 xp r (q + 2))) * relu (xp r q - padAt 0 xp (r + 1) q))
    * relu (xp r q - padAt 0 xp (r + 1) (q + 2))) * relu (xp r q - padAt 0 xp (r + 2) q))
    * relu (xp r q - padAt 0 xp (r + 2) (q + 1))) * relu (xp r q - padAt 0 xp (r + 2) (q + 2))) * scaleW

/-- The 3 × 3 window maximum with −∞ outside the image, folded from −∞ in row-major order. -/
def max9At (nm : Plane) : Plane := fun r q =>
  max (max (max (max (max (max (max (max (max ⊥ (padAt ⊥ nm r q)) (padAt ⊥ nm r (q + 1))) (padAt ⊥ nm r (q + 2)))
    (padAt ⊥ nm (r + 1) q)) (padAt ⊥ nm (r + 1) (q + 1))) (padAt ⊥ nm (r + 1) (q + 2)))
    (padAt ⊥ nm (r + 2) q)) (padAt ⊥ nm (r + 2) (q + 1))) (padAt ⊥ nm (r + 2) (q + 2))

/-- The result plane. -/
def outAt (x0 x1 : Plane) : Plane := fun r q => xpAt x0 x1 r q * max9At (nmsAt (xpAt x0 x1)) r q

/-- Plane `ch` of image `b` of an array of `n` two-plane images, as a total function (zero off the image). -/
def plane4 {n : ℕ} (x : (⟨4, ![n, 2, 1024, 1024]⟩ : Shape).Idx → EReal) (b : Fin n) (ch : Fin 2) : Plane := fun r q =>
  if h : r < 1024 ∧ q < 1024 then x (ix4 b ch ⟨r, h.1⟩ ⟨q, h.2⟩) else 0

/-- The whole result: image `b`, row `r`, column `q` of the output is the stencil of image `b`'s two planes. -/
def G {n : ℕ} (x : (⟨4, ![n, 2, 1024, 1024]⟩ : Shape).Idx → EReal) : (⟨4, ![n, 1, 1024, 1024]⟩ : Shape).Idx → EReal :=
  fun i => outAt (plane4 x ⟨(i 0).val, (i 0).isLt⟩ 0) (plane4 x ⟨(i 0).val, (i 0).isLt⟩ 1) (i 2).val (i 3).val

/-- A plane held in a buffer of 1032 rows with one border row above and one below: row `R` of the buffer is
    row `R − 1` of the plane for `1 ≤ R ≤ 1024`, and `z` on the border rows. -/
def haloAt (z : EReal) (f : Plane) (y : (⟨2, ![1032, 1024]⟩ : Shape).Idx) : EReal :=
  if 1 ≤ (y 0).val ∧ (y 0).val ≤ 1024 then f ((y 0).val - 1) (y 1).val else z

end Cert.Stencil

end
-- ==== Proof.ChunkOps.lean ====
/-
  One 128-row chunk of each of the kernel's three passes, read at an entry.

  Pass 1 writes the thresholded difference of the two input planes; pass 2 reads a chunk of it (the centre) and
  the 130 rows around it (one more above and below), pads a column of zeros left and right, and multiplies the
  eight clipped differences to the centre, times 256; pass 3 does the same reading on the second buffer with −∞
  in place of zero and takes the nine-fold maximum, then multiplies by the centre.  Each lemma states what the
  chunk's vector holds at row `p`, column `q`, given what the loaded vectors hold entry by entry, in the
  coordinates of the whole plane: the chunk starts at plane row `r0`.
-/
import proofs.«130109_j38654705664677_1_alg».proof.Proof.Gen.KernelIdeal.Skeleton
import proofs.«130109_j38654705664677_1_alg».proof.Proof.StencilSpec
import Idealize.ShloMosaic.Lib.Pipeline.Value
import Idealize.ShloMosaic.Lib.ValueLayout
import Idealize.ShloMosaic.PureOps.IdealRules

noncomputable section

namespace Cert.KernelIdeal.Chunk

open Cert.KernelIdeal Cert.KernelIdeal.Gen Cert.Stencil
open Idealize.ShloMosaic Idealize.ShloMosaic.ValueIdx

/-- The kernel's stand-in for −∞ is −∞ on the extended reals. -/
theorem neg_big_eq : Named.named (F := Ideal) Cert.KernelIdeal.κ "neg_big" (φ := .f32) 0xFF333332#32 = (⊥ : EReal) :=
  IdealRules.named_const.ideal_named_scalar _ _ _ _ rfl

/-- Dropping the two leading unit axes of a block keeps the entry at row `p`, column `q`. -/
theorem cast_drop_apply {α : Type} (v : S1x1x128x1024.Idx → α) (h : S1x1x128x1024.ShapeCasts S128x1024)
    (p : Fin 128) (q : Fin 1024) : shapeCast S128x1024 v h (ix2 p q) = v (ix4 0 0 p q) :=
  shapeCast_apply v h (ix2 p q) (ix4 0 0 p q) (by
    rewrite [Shape.rowMajor_val_four, Shape.rowMajor_val_two]
    show ((0 * 1 + 0) * 128 + p.val) * 1024 + q.val = p.val * 1024 + q.val
    omega)

/-- Adding two leading unit axes keeps the entry at row `p`, column `q`. -/
theorem cast_add_apply {α : Type} (v : S128x1024.Idx → α) (h : S128x1024.ShapeCasts S1x1x128x1024)
    (p : Fin 128) (q : Fin 1024) : shapeCast S1x1x128x1024 v h (ix4 0 0 p q) = v (ix2 p q) :=
  shapeCast_apply v h (ix4 0 0 p q) (ix2 p q) (by
    rewrite [Shape.rowMajor_val_four, Shape.rowMajor_val_two]
    show p.val * 1024 + q.val = ((0 * 1 + 0) * 128 + p.val) * 1024 + q.val
    omega)

/-- Pass 1: the clipped, thresholded difference of the two loaded blocks. -/
theorem xp_chunk_apply (x0p x1p : Plane) (r0 : ℕ) (v0 v1 : Vec Ideal S1x1x128x1024 .f32)
    (h0 : ∀ (p : Fin 128) (q : Fin 1024), v0 (ix4 0 0 p q) = x0p (r0 + p.val) q.val)
    (h1 : ∀ (p : Fin 128) (q : Fin 1024), v1 (ix4 0 0 p q) = x1p (r0 + p.val) q.val)
    (p : Fin 128) (q : Fin 1024) :
    k0_pay6 (F := Ideal) v0 v1 (ix2 p q) = xpAt x0p x1p (r0 + p.val) q.val := by
  unfold k0_pay6
  simp only [shapeCast_self, maximumf_apply, subf_apply, broadcast_apply, cast_drop_apply, h0, h1]
  rfl

/-- A 130 × 1024 vector with one column of `z` put before its first and after its last column. -/
def colPad (z : EReal) (ext : Vec Ideal S130x1024 .f32) : FVec Ideal S130x1026 .f32 :=
  concatenate S130x1026 1
    [⟨S130x1025, concatenate S130x1025 1 [⟨S130x1, broadcast S130x1 z⟩, ⟨S130x1024, ext⟩] concatenates_S130x1_S130x1024_S130x1025_d1⟩,
     ⟨S130x1, broadcast S130x1 z⟩] concatenates_S130x1025_S130x1_S130x1026_d1

/-- The padded vector at row `P`, column `Q`: `z` on the first and last column, the vector one column to the left otherwise. -/
theorem colPad_apply (z : EReal) (ext : Vec Ideal S130x1024 .f32) (P : Fin 130) (Q : Fin 1026) :
    colPad z ext (ix2 P Q) = if h : 1 ≤ Q.val ∧ Q.val ≤ 1024 then ext (ix2 P ⟨Q.val - 1, by omega⟩) else z := by
  unfold colPad
  by_cases hR : Q.val ≤ 1024
  · -- inside the first 1025 columns
    have hQ' : Q.val < 1025 := by omega
    refine (concatenate_pair_apply_left (t := S130x1026) (s₁ := S130x1025) (s₂ := S130x1) (1 : Fin 2) _ _
      concatenates_S130x1025_S130x1_S130x1026_d1 (ix2 P Q) rfl
      (ix2 P (⟨Q.val, hQ'⟩ : Fin 1025)) (fun b => match b with | ⟨0, _⟩ => rfl | ⟨1, _⟩ => rfl)).trans ?_
    by_cases hL : 1 ≤ Q.val
    · rw [dif_pos ⟨hL, hR⟩]
      exact concatenate_pair_apply_right (t := S130x1025) (s₁ := S130x1) (s₂ := S130x1024) (1 : Fin 2) _ _
        concatenates_S130x1_S130x1024_S130x1025_d1 (ix2 P (⟨Q.val, hQ'⟩ : Fin 1025)) rfl rfl
        (ix2 P (⟨Q.val - 1, by omega⟩ : Fin 1024)) (fun b => match b with | ⟨0, _⟩ => fun _ => rfl | ⟨1, _⟩ => fun hb => absurd rfl hb)
        (by show Q.val - 1 + 1 = Q.val; omega)
    · rw [dif_neg (fun h => hL h.1)]
      exact concatenate_pair_apply_left (t := S130x1025) (s₁ := S130x1) (s₂ := S130x1024) (1 : Fin 2) _ _
        concatenates_S130x1_S130x1024_S130x1025_d1 (ix2 P (⟨Q.val, hQ'⟩ : Fin 1025)) rfl
        (ix2 P (⟨0, Nat.one_pos⟩ : Fin 1)) (fun b => match b with | ⟨0, _⟩ => rfl | ⟨1, _⟩ => by show 0 = Q.val; omega)
  · rw [dif_neg (fun h => hR h.2)]
    exact concatenate_pair_apply_right (t := S130x1026) (s₁ := S130x1025) (s₂ := S130x1) (1 : Fin 2) _ _
      concatenates_S130x1025_S130x1_S130x1026_d1 (ix2 P Q) rfl rfl
      (ix2 P (⟨0, Nat.one_pos⟩ : Fin 1)) (fun b => match b with | ⟨0, _⟩ => fun _ => rfl | ⟨1, _⟩ => fun hb => absurd rfl hb)
      (by have := Q.isLt; show 0 + 1025 = Q.val; omega)

/-- The column-padded vector over a buffer window that holds the plane `f` with border rows `z`
    is the plane padded by `z` all around, read in the window's rows. -/
theorem colPad_eq_padAt (z : EReal) (f : Plane) (r0 : ℕ) (ext : Vec Ideal S130x1024 .f32)
    (hext : ∀ (p : Fin 130) (q : Fin 1024), ext (ix2 p q)
      = if 1 ≤ r0 + p.val ∧ r0 + p.val ≤ 1024 then f (r0 + p.val - 1) q.val else z)
    (P : Fin 130) (Q : Fin 1026) : colPad z ext (ix2 P Q) = padAt z f (r0 + P.val) Q.val := by
  rw [colPad_apply]
  unfold padAt
  by_cases h : 1 ≤ Q.val ∧ Q.val ≤ 1024
  · rw [dif_pos h, if_pos h, hext]
  · rw [dif_neg h, if_neg h]

/-- A 128 × 1024 window of the padded vector at offsets `(i, j)`, read at row `p`, column `q`. -/
theorem slice_colPad (z : EReal) (f : Plane) (r0 : ℕ) (ext : Vec Ideal S130x1024 .f32)
    (hext : ∀ (p : Fin 130) (q : Fin 1024), ext (ix2 p q)
      = if 1 ≤ r0 + p.val ∧ r0 + p.val ≤ 1024 then f (r0 + p.val - 1) q.val else z)
    (i j : ℕ) (hi : i ≤ 2) (hj : j ≤ 2) (h : S130x1026.Slices ![i, j] S128x1024) (p : Fin 128) (q : Fin 1024) :
    extractStridedSlice S128x1024 ![i, j] (colPad z ext) h (ix2 p q) = padAt z f (r0 + p.val + i) (q.val + j) := by
  have e := extractStridedSlice_apply ![i, j] (colPad z ext) h (ix2 p q)
    (ix2 (⟨p.val + i, by omega⟩ : Fin 130) (⟨q.val + j, by omega⟩ : Fin 1026))
    (fun a => match a with
      | ⟨0, _⟩ => by show p.val + i = i + p.val; omega
      | ⟨1, _⟩ => by show q.val + j = j + q.val; omega)
  rw [e, colPad_eq_padAt z f r0 ext hext]
  show padAt z f (r0 + (p.val + i)) (q.val + j) = _
  rw [Nat.add_assoc]

/-- Pass 2: the product of the eight clipped differences to the centre, times 256. -/
theorem nms_chunk_apply (xp : Plane) (r0 : ℕ) (ctr : Vec Ideal S128x1024 .f32) (ext : Vec Ideal S130x1024 .f32)
    (hctr : ∀ (p : Fin 128) (q : Fin 1024), ctr (ix2 p q) = xp (r0 + p.val) q.val)
    (hext : ∀ (p : Fin 130) (q : Fin 1024), ext (ix2 p q)
      = if 1 ≤ r0 + p.val ∧ r0 + p.val ≤ 1024 then xp (r0 + p.val - 1) q.val else 0)
    (p : Fin 128) (q : Fin 1024) :
    k0_pay22 (F := Ideal) (k0_pay20 ctr ext) (k0_pay21 ctr ext) (ix2 p q) = nmsAt xp (r0 + p.val) q.val := by
  have hpad : k0_pay19 (F := Ideal) ext = colPad (Ideal.ofBits .f32 0x00000000#32) ext := rfl
  rw [Ideal.ofBits_zero_f32] at hpad
  unfold k0_pay22 k0_pay20 k0_pay21
  simp only [shapeCast_self, maximumf_apply, subf_apply, mulf_apply, broadcast_apply, hpad, hctr]
  rw [slice_colPad 0 xp r0 ext hext 0 0 (by omega) (by omega), slice_colPad 0 xp r0 ext hext 0 1 (by omega) (by omega),
    slice_colPad 0 xp r0 ext hext 0 2 (by omega) (by omega), slice_colPad 0 xp r0 ext hext 1 0 (by omega) (by omega),
    slice_colPad 0 xp r0 ext hext 1 2 (by omega) (by omega), slice_colPad 0 xp r0 ext hext 2 0 (by omega) (by omega),
    slice_colPad 0 xp r0 ext hext 2 1 (by omega) (by omega), slice_colPad 0 xp r0 ext hext 2 2 (by omega) (by omega)]
  rfl

/-- The two nested concatenations along the columns, as the padded vector. -/
theorem colPad_fold (z : EReal) (ext : Vec Ideal S130x1024 .f32) :
    concatenate S130x1026 1
      [⟨S130x1025, concatenate S130x1025 1 [⟨S130x1, broadcast S130x1 z⟩, ⟨S130x1024, ext⟩] concatenates_S130x1_S130x1024_S130x1025_d1⟩,
       ⟨S130x1, broadcast S130x1 z⟩] concatenates_S130x1025_S130x1_S130x1026_d1 = colPad z ext := rfl

/-- Pass 3: the centre times the nine-fold maximum over the window. -/
theorem out_chunk_apply (xp nm : Plane) (r0 : ℕ) (ctr : Vec Ideal S128x1024 .f32) (ext : Vec Ideal S130x1024 .f32)
    (hctr : ∀ (p : Fin 128) (q : Fin 1024), ctr (ix2 p q) = xp (r0 + p.val) q.val)
    (hext : ∀ (p : Fin 130) (q : Fin 1024), ext (ix2 p q)
      = if 1 ≤ r0 + p.val ∧ r0 + p.val ≤ 1024 then nm (r0 + p.val - 1) q.val else ⊥)
    (p : Fin 128) (q : Fin 1024) :
    k0_pay46 (F := Ideal) ctr ext (ix4 0 0 p q) = xp (r0 + p.val) q.val * max9At nm (r0 + p.val) q.val := by
  unfold k0_pay46
  simp only [neg_big_eq, colPad_fold, cast_add_apply, maximumf_apply, mulf_apply, broadcast_apply, hctr]
  rw [slice_colPad ⊥ nm r0 ext hext 0 0 (by omega) (by omega), slice_colPad ⊥ nm r0 ext hext 0 1 (by omega) (by omega),
    slice_colPad ⊥ nm r0 ext hext 0 2 (by omega) (by omega), slice_colPad ⊥ nm r0 ext hext 1 0 (by omega) (by omega),
    slice_colPad ⊥ nm r0 ext hext 1 1 (by omega) (by omega), slice_colPad ⊥ nm r0 ext hext 1 2 (by omega) (by omega),
    slice_colPad ⊥ nm r0 ext hext 2 0 (by omega) (by omega), slice_colPad ⊥ nm r0 ext hext 2 1 (by omega) (by omega),
    slice_colPad ⊥ nm r0 ext hext 2 2 (by omega) (by omega)]
  rfl

end Cert.KernelIdeal.Chunk

end
-- ==== Proof.ScratchXP.lean ====
/-
  The first buffer of 1032 rows after the kernel's first pass: row 0 and row 1025 hold zero, and row `R`
  for `1 ≤ R ≤ 1024` holds row `R − 1` of the thresholded difference `xp` of the block's two planes —
  eight chunks of 128 rows and two border rows, ten stores that are all blocks of one function of the
  buffer's index.  So every later load of the buffer, through whatever box of rows at most 1025, reads
  that one function.
-/
import proofs.«130109_j38654705664677_1_alg».proof.Proof.Gen.KernelIdeal.Frame
import proofs.«130109_j38654705664677_1_alg».proof.Proof.ChunkOps
import Idealize.ShloMosaic.Lib.Pipeline.Value

set_option maxRecDepth 16384

noncomputable section

namespace Cert.KernelIdeal.ScratchXP

open Cert.KernelIdeal Cert.KernelIdeal.Gen Cert.Stencil
open Idealize.ShloMosaic Idealize.ShloMosaic.TcCoe Idealize.SL.Sem Idealize.ShloMosaic.ValueIdx

/-- The thresholded difference of the two planes of a block. -/
abbrev xpB (x0 : Vec Ideal S1x2x1024x1024 .f32) : Plane := xpAt (plane4 x0 0 0) (plane4 x0 0 1)

/-- A block of 128 rows of plane `ch` read from the whole input. -/
theorem load_plane (arg1 : Memref sig .tc .vmem S1x2x1024x1024 .f32) (harg1 : arg1.IsWhole)
    (x0 : Vec Ideal S1x2x1024x1024 .f32) (ch : Fin 2) (r0 : ℕ) (hr : r0 + 128 ≤ 1024)
    (inb : ∀ a, (![0, ch.val, r0, 0] : Fin 4 → ℕ) a + S1x1x128x1024.size a ≤ S1x2x1024x1024.size a)
    (p : Fin 128) (q : Fin 1024) :
    View.readAt (Elt Ideal) arg1.view (Rect.unit (s := S1x2x1024x1024) ![0, ch.val, r0, 0] S1x1x128x1024.size inb).toLoadRect
        (harg1.unread x0) (ix4 0 0 p q) = plane4 x0 0 ch (r0 + p.val) q.val := by
  rw [View.readAt_apply, harg1.read_unread x0]
  unfold plane4
  rw [dif_pos ⟨by omega, q.isLt⟩]
  refine congrArg x0 ?_
  funext a
  match a with
  | ⟨0, _⟩ => exact Fin.ext rfl
  | ⟨1, _⟩ => exact Fin.ext (by simp [LoadRect.idx_apply])
  | ⟨2, _⟩ => exact Fin.ext (by simp [LoadRect.idx_apply])
  | ⟨3, _⟩ => exact Fin.ext (by simp [LoadRect.idx_apply])

/-- One chunk of the first pass is a block of the bordered plane. -/
theorem xp_piece (arg1 : Memref sig .tc .vmem S1x2x1024x1024 .f32) (harg1 : arg1.IsWhole)
    (x0 : Vec Ideal S1x2x1024x1024 .f32) (r0 r1 : ℕ) (hr : r0 + 128 ≤ 1024) (h1 : r1 = r0 + 1)
    (inb0 : ∀ a, (![0, (0 : Fin 2).val, r0, 0] : Fin 4 → ℕ) a + S1x1x128x1024.size a ≤ S1x2x1024x1024.size a)
    (inb1 : ∀ a, (![0, (1 : Fin 2).val, r0, 0] : Fin 4 → ℕ) a + S1x1x128x1024.size a ≤ S1x2x1024x1024.size a)
    (inbS : ∀ a, (![r1, 0] : Fin 2 → ℕ) a + S128x1024.size a ≤ S1032x1024.size a)
    (p : Fin 128) (q : Fin 1024) :
    k0_pay6 (F := Ideal)
        (View.readAt (Elt Ideal) arg1.view (Rect.unit (s := S1x2x1024x1024) ![0, (0 : Fin 2).val, r0, 0] S1x1x128x1024.size inb0).toLoadRect (harg1.unread x0))
        (View.readAt (Elt Ideal) arg1.view (Rect.unit (s := S1x2x1024x1024) ![0, (1 : Fin 2).val, r0, 0] S1x1x128x1024.size inb1).toLoadRect (harg1.unread x0))
        (ix2 p q)
      = haloAt 0 (xpB x0) ((Rect.unit (s := S1032x1024) ![r1, 0] S128x1024.size inbS).emb (ix2 p q)) := by
  rw [Chunk.xp_chunk_apply (plane4 x0 0 0) (plane4 x0 0 1) r0 _ _
    (fun p q => load_plane arg1 harg1 x0 0 r0 hr inb0 p q) (fun p q => load_plane arg1 harg1 x0 1 r0 hr inb1 p q) p q]
  unfold haloAt
  have e0 : (((Rect.unit (s := S1032x1024) ![r1, 0] S128x1024.size inbS).emb (ix2 p q)) 0).val = r1 + 1 * p.val := rfl
  have e1 : (((Rect.unit (s := S1032x1024) ![r1, 0] S128x1024.size inbS).emb (ix2 p q)) 1).val = 0 + 1 * q.val := rfl
  rw [e0, e1, if_pos (by omega)]
  have a0 : r1 + 1 * p.val - 1 = r0 + p.val := by omega
  have a1 : 0 + 1 * q.val = q.val := by omega
  rw [a0, a1]

/-- The lower border row holds zero. -/
theorem border_lo (x : S1x1024.Idx) : k0_pay2 (F := Ideal) x = 0 := by
  unfold k0_pay2
  rw [shapeCast_self]
  exact Ideal.ofBits_zero_f32

/-- The upper border row holds zero. -/
theorem border_hi (x : S1x1024.Idx) : k0_pay3 (F := Ideal) x = 0 := by
  unfold k0_pay3
  rw [shapeCast_self]
  exact Ideal.ofBits_zero_f32

/-- Membership in a band of whole rows of the buffer. -/
theorem mem_rows (off n : ℕ) (inb : ∀ a, (![off, 0] : Fin 2 → ℕ) a + (![n, 1024] : Fin 2 → ℕ) a ≤ S1032x1024.size a)
    (y : S1032x1024.Idx) (h : off ≤ (y 0).val ∧ (y 0).val < off + n) :
    y ∈ (Rect.unit (s := S1032x1024) ![off, 0] ![n, 1024] inb).set := by
  refine Rect.mem_set_unit.mpr (Fin.forall_fin_two.mpr ⟨h, ?_⟩)
  have hq : (y 1).val < 1024 := (y 1).isLt
  show 0 ≤ (y 1).val ∧ (y 1).val < 0 + 1024
  omega

/-- What the ten stores of the first pass leave, at every row they cover. -/
theorem canonXP (c : Dev nD) (arg1 : Memref sig .tc .vmem S1x2x1024x1024 .f32) (harg1 : arg1.IsWhole)
    (x0 : Vec Ideal S1x2x1024x1024 .f32) (y : S1032x1024.Idx) (hy : (y 0).val ≤ 1025) :
    View.canon (kernelRun0_A.sl.HS0_10 (F := Ideal) c arg1 harg1 x0) y = haloAt 0 (xpB x0) y := by
  refine View.canon_apply_of_pieces (Val := Elt Ideal) (S := S1032x1024) (e := .f32) (haloAt 0 (xpB x0)) _ ?_ y ?_
  · unfold kernelRun0_A.sl.HS0_10
    intro p hp
    simp only [List.mem_cons, List.not_mem_nil, or_false] at hp
    rcases hp with rfl | rfl | rfl | rfl | rfl | rfl | rfl | rfl | rfl | rfl
    · intro x
      obtain ⟨p, q, rfl⟩ : ∃ (p : Fin 128) (q : Fin 1024), x = ix2 p q := ⟨x 0, x 1, eq_ix2 x⟩
      exact xp_piece arg1 harg1 x0 896 897 (by norm_num) rfl inb_S1x2x1024x1024_S1x1x128x1024_0_0_896_0
        inb_S1x2x1024x1024_S1x1x128x1024_0_1_896_0 inb_S1032x1024_S128x1024_897_0 p q
    · intro x
      obtain ⟨p, q, rfl⟩ : ∃ (p : Fin 128) (q : Fin 1024), x = ix2 p q := ⟨x 0, x 1, eq_ix2 x⟩
      exact xp_piece arg1 harg1 x0 768 769 (by norm_num) rfl inb_S1x2x1024x1024_S1x1x128x1024_0_0_768_0
        inb_S1x2x1024x1024_S1x1x128x1024_0_1_768_0 inb_S1032x1024_S128x1024_769_0 p q
    · intro x
      obtain ⟨p, q, rfl⟩ : ∃ (p : Fin 128) (q : Fin 1024), x = ix2 p q := ⟨x 0, x 1, eq_ix2 x⟩
      exact xp_piece arg1 harg1 x0 640 641 (by norm_num) rfl inb_S1x2x1024x1024_S1x1x128x1024_0_0_640_0
        inb_S1x2x1024x1024_S1x1x128x1024_0_1_640_0 inb_S1032x1024_S128x1024_641_0 p q
    · intro x
      obtain ⟨p, q, rfl⟩ : ∃ (p : Fin 128) (q : Fin 1024), x = ix2 p q := ⟨x 0, x 1, eq_ix2 x⟩
      exact xp_piece arg1 harg1 x0 512 513 (by norm_num) rfl inb_S1x2x1024x1024_S1x1x128x1024_0_0_512_0
        inb_S1x2x1024x1024_S1x1x128x1024_0_1_512_0 inb_S1032x1024_S128x1024_513_0 p q
    · intro x
      obtain ⟨p, q, rfl⟩ : ∃ (p : Fin 128) (q : Fin 1024), x = ix2 p q := ⟨x 0, x 1, eq_ix2 x⟩
      exact xp_piece arg1 harg1 x0 384 385 (by norm_num) rfl inb_S1x2x1024x1024_S1x1x128x1024_0_0_384_0
        inb_S1x2x1024x1024_S1x1x128x1024_0_1_384_0 inb_S1032x1024_S128x1024_385_0 p q
    · intro x
      obtain ⟨p, q, rfl⟩ : ∃ (p : Fin 128) (q : Fin 1024), x = ix2 p q := ⟨x 0, x 1, eq_ix2 x⟩
      exact xp_piece arg1 harg1 x0 256 257 (by norm_num) rfl inb_S1x2x1024x1024_S1x1x128x1024_0_0_256_0
        inb_S1x2x1024x1024_S1x1x128x1024_0_1_256_0 inb_S1032x1024_S128x1024_257_0 p q
    · intro x
      obtain ⟨p, q, rfl⟩ : ∃ (p : Fin 128) (q : Fin 1024), x = ix2 p q := ⟨x 0, x 1, eq_ix2 x⟩
      exact xp_piece arg1 harg1 x0 128 129 (by norm_num) rfl inb_S1x2x1024x1024_S1x1x128x1024_0_0_128_0
        inb_S1x2x1024x1024_S1x1x128x1024_0_1_128_0 inb_S1032x1024_S128x1024_129_0 p q
    · intro x
      obtain ⟨p, q, rfl⟩ : ∃ (p : Fin 128) (q : Fin 1024), x = ix2 p q := ⟨x 0, x 1, eq_ix2 x⟩
      exact xp_piece arg1 harg1 x0 0 1 (by norm_num) rfl inb_S1x2x1024x1024_S1x1x128x1024_0_0_0_0
        inb_S1x2x1024x1024_S1x1x128x1024_0_1_0_0 inb_S1032x1024_S128x1024_1_0 p q
    · intro x
      show k0_pay3 (F := Ideal) x = haloAt 0 (xpB x0) _
      rw [border_hi]
      obtain ⟨p, q, rfl⟩ : ∃ (p : Fin 1) (q : Fin 1024), x = ix2 p q := ⟨x 0, x 1, eq_ix2 x⟩
      unfold haloAt
      have e0 : (((Rect.unit (s := S1032x1024) ![1025, 0] S1x1024.size inb_S1032x1024_S1x1024_1025_0).emb (ix2 p q)) 0).val = 1025 + 1 * p.val := rfl
      rw [e0, if_neg (by omega)]
    · intro x
      show k0_pay2 (F := Ideal) x = haloAt 0 (xpB x0) _
      rw [border_lo]
      obtain ⟨p, q, rfl⟩ : ∃ (p : Fin 1) (q : Fin 1024), x = ix2 p q := ⟨x 0, x 1, eq_ix2 x⟩
      unfold haloAt
      have e0 : (((Rect.unit (s := S1032x1024) ![0, 0] S1x1024.size inb_S1032x1024_S1x1024_0_0).emb (ix2 p q)) 0).val = 0 + 1 * p.val := rfl
      have hp : p.val < 1 := p.isLt
      rw [e0, if_neg (by omega)]
  · unfold kernelRun0_A.sl.HS0_10
    simp only [List.mem_cons, List.not_mem_nil, or_false, or_and_right, exists_or, exists_eq_left]
    have h9 : (y 0).val = 0 ∨ (1 ≤ (y 0).val ∧ (y 0).val < 129) ∨ (129 ≤ (y 0).val ∧ (y 0).val < 257)
        ∨ (257 ≤ (y 0).val ∧ (y 0).val < 385) ∨ (385 ≤ (y 0).val ∧ (y 0).val < 513)
        ∨ (513 ≤ (y 0).val ∧ (y 0).val < 641) ∨ (641 ≤ (y 0).val ∧ (y 0).val < 769)
        ∨ (769 ≤ (y 0).val ∧ (y 0).val < 897) ∨ (897 ≤ (y 0).val ∧ (y 0).val < 1025) ∨ (y 0).val = 1025 := by omega
    rcases h9 with h | h | h | h | h | h | h | h | h | h
    · refine Or.inr (Or.inr (Or.inr (Or.inr (Or.inr (Or.inr (Or.inr (Or.inr (Or.inr ((mem_rows 0 1 _ y ⟨by omega, by omega⟩))))))))))
    · refine Or.inr (Or.inr (Or.inr (Or.inr (Or.inr (Or.inr (Or.inr (Or.inl (mem_rows 1 128 _ y ⟨by omega, by omega⟩))))))))
    · refine Or.inr (Or.inr (Or.inr (Or.inr (Or.inr (Or.inr (Or.inl (mem_rows 129 128 _ y ⟨by omega, by omega⟩)))))))
    · refine Or.inr (Or.inr (Or.inr (Or.inr (Or.inr (Or.inl (mem_rows 257 128 _ y ⟨by omega, by omega⟩))))))
    · refine Or.inr (Or.inr (Or.inr (Or.inr (Or.inl (mem_rows 385 128 _ y ⟨by omega, by omega⟩)))))
    · refine Or.inr (Or.inr (Or.inr (Or.inl (mem_rows 513 128 _ y ⟨by omega, by omega⟩))))
    · refine Or.inr (Or.inr (Or.inl (mem_rows 641 128 _ y ⟨by omega, by omega⟩)))
    · refine Or.inr (Or.inl (mem_rows 769 128 _ y ⟨by omega, by omega⟩))
    · refine Or.inl (mem_rows 897 128 _ y ⟨by omega, by omega⟩)
    · refine Or.inr (Or.inr (Or.inr (Or.inr (Or.inr (Or.inr (Or.inr (Or.inr (Or.inl (mem_rows 1025 1 _ y ⟨by omega, by omega⟩)))))))))

/-- So a load of the buffer after the first pass, through a box of rows at most 1025, reads `xp` with its border. -/
theorem loadXP (c : Dev nD) (arg1 : Memref sig .tc .vmem S1x2x1024x1024 .f32) (harg1 : arg1.IsWhole)
    (arg3 : Memref sig .tc .vmem S1032x1024 .f32) (x0 : Vec Ideal S1x2x1024x1024 .f32)
    (B : LoadRect S1032x1024) (hB : ∀ j : B.shape.Idx, ((B.idx j) 0).val ≤ 1025) :
    arg3.view.readCov (kernelRun0_A.sl.HS0_10 (F := Ideal) c arg1 harg1 x0) B
      = fun j => haloAt 0 (xpB x0) (B.idx j) := by
  rw [View.readCov_eq_canon']
  funext j
  exact canonXP c arg1 harg1 x0 (B.idx j) (hB j)

end Cert.KernelIdeal.ScratchXP

end
-- ==== Proof.ScratchNMS.lean ====
/-
  The second buffer of 1032 rows after the kernel's second pass: row 0 and row 1025 hold −∞, and row `R`
  for `1 ≤ R ≤ 1024` holds row `R − 1` of `nms`, the scaled product of the eight clipped differences of
  `xp` to its neighbours (zero outside the image) — again ten stores that are blocks of one function.
-/
import proofs.«130109_j38654705664677_1_alg».proof.Proof.Gen.KernelIdeal.Frame
import proofs.«130109_j38654705664677_1_alg».proof.Proof.ChunkOps
import proofs.«130109_j38654705664677_1_alg».proof.Proof.ScratchXP
import Idealize.ShloMosaic.Lib.Pipeline.Value

set_option maxRecDepth 16384

noncomputable section

namespace Cert.KernelIdeal.ScratchNMS

open Cert.KernelIdeal Cert.KernelIdeal.Gen Cert.Stencil Cert.KernelIdeal.ScratchXP
open Idealize.ShloMosaic Idealize.ShloMosaic.TcCoe Idealize.SL.Sem Idealize.ShloMosaic.ValueIdx

/-- The scaled neighbour product of a block. -/
abbrev nmB (x0 : Vec Ideal S1x2x1024x1024 .f32) : Plane := nmsAt (xpB x0)

/-! ## The eight chunks are one computation

Each chunk of 128 rows forms the same product from its centre rows `ctr` and the 130 rows `ext` around them: pad a
column of zeros left and right of `ext`, take the eight shifted windows, clip the differences to `ctr` at zero, multiply
them up from one, scale by 256.  The program text groups these steps differently from chunk to chunk (the padded array,
a partial product, a last difference, a constant zero handed on separately); every grouping unfolds to the same
term, so each equals the grouping of the chunk of rows 129 … 256 by reflexivity. -/

section Cuts
variable (ctr : Vec Ideal S128x1024 .f32) (ext : Vec Ideal S130x1024 .f32)

theorem cut0 : k0_pay18 (F := Ideal) (k0_pay17 ctr ext kernelRun0_A.sl.cst_94)
    = k0_pay22 (k0_pay20 ctr ext) (k0_pay21 ctr ext) := rfl

theorem cut2 : k0_pay27 (F := Ideal) ctr (k0_pay23 ext) (k0_pay24 ctr ext) (k0_pay25 ctr ext) k0_pay26
    = k0_pay22 (k0_pay20 ctr ext) (k0_pay21 ctr ext) := rfl

theorem cut3 : k0_pay30 (F := Ideal) ctr (k0_pay28 ext) (k0_pay29 ctr ext)
    = k0_pay22 (k0_pay20 ctr ext) (k0_pay21 ctr ext) := rfl

theorem cut4 : k0_pay34 (F := Ideal) ctr (k0_pay31 ext) (k0_pay32 ctr ext) (k0_pay33 ctr ext)
    = k0_pay22 (k0_pay20 ctr ext) (k0_pay21 ctr ext) := rfl

theorem cut5 : k0_pay39 (F := Ideal) ctr (k0_pay35 ext) k0_pay36 (k0_pay37 ctr ext) k0_pay38
    = k0_pay22 (k0_pay20 ctr ext) (k0_pay21 ctr ext) := rfl

theorem cut6 : k0_pay41 (F := Ideal) (k0_pay40 ctr ext kernelRun0_A.sl.cst_94)
    = k0_pay22 (k0_pay20 ctr ext) (k0_pay21 ctr ext) := rfl

theorem cut7 : k0_pay45 (F := Ideal) (k0_pay43 ctr ext) (k0_pay44 ctr ext)
    = k0_pay22 (k0_pay20 ctr ext) (k0_pay21 ctr ext) := rfl

end Cuts

/-! ## What a chunk reads and what it stores -/

/-- A box of `n` whole rows of the first buffer from row `off`, read after the first pass, at row `p` and column `q` of
    the box: row `off + p − 1` of `xp` inside the image, zero on the two border rows. -/
theorem load_rows (c : Dev nD) (arg1 : Memref sig .tc .vmem S1x2x1024x1024 .f32) (harg1 : arg1.IsWhole)
    (arg3 : Memref sig .tc .vmem S1032x1024 .f32) (x0 : Vec Ideal S1x2x1024x1024 .f32)
    (off n : ℕ) (hn : off + n ≤ 1026) (inb : ∀ a, (![off, 0] : Fin 2 → Nat) a + (![n, 1024] : Fin 2 → Nat) a ≤ S1032x1024.size a)
    (p : Fin n) (q : Fin 1024) :
    arg3.view.readCov (kernelRun0_A.sl.HS0_10 (F := Ideal) c arg1 harg1 x0)
        (Rect.unit (s := S1032x1024) ![off, 0] ![n, 1024] inb).toLoadRect (ix2 p q)
      = if 1 ≤ off + p.val ∧ off + p.val ≤ 1024 then xpB x0 (off + p.val - 1) q.val else 0 := by
  rw [loadXP c arg1 harg1 arg3 x0 _ (by
    intro j
    show off + 1 * (j 0).val ≤ 1025
    have := (j 0).isLt
    have h2 : (j 0).val < n := this
    omega)]
  show haloAt 0 (xpB x0) _ = _
  unfold haloAt
  show (if 1 ≤ off + 1 * p.val ∧ off + 1 * p.val ≤ 1024 then xpB x0 (off + 1 * p.val - 1) (0 + 1 * q.val) else 0) = _
  rw [Nat.one_mul, Nat.one_mul, Nat.zero_add]

/-- One chunk of the second pass is a block of the bordered product plane: the chunk of rows `128 k …` computed from
    the centre rows and the 130 rows around them, read at row `p`, column `q`, is the product plane at row `128 k + p`. -/
theorem chunk_piece (c : Dev nD) (arg1 : Memref sig .tc .vmem S1x2x1024x1024 .f32) (harg1 : arg1.IsWhole)
    (arg3 : Memref sig .tc .vmem S1032x1024 .f32) (x0 : Vec Ideal S1x2x1024x1024 .f32)
    (k : ℕ) (hk : k < 8)
    (inbc : ∀ a, (![1 + 128 * k, 0] : Fin 2 → Nat) a + (![128, 1024] : Fin 2 → Nat) a ≤ S1032x1024.size a)
    (inbe : ∀ a, (![128 * k, 0] : Fin 2 → Nat) a + (![130, 1024] : Fin 2 → Nat) a ≤ S1032x1024.size a)
    (x : (⟨2, ![128, 1024]⟩ : Shape).Idx) :
    k0_pay22 (F := Ideal)
        (k0_pay20 (arg3.view.readCov (kernelRun0_A.sl.HS0_10 (F := Ideal) c arg1 harg1 x0)
            (Rect.unit (s := S1032x1024) ![1 + 128 * k, 0] ![128, 1024] inbc).toLoadRect)
          (arg3.view.readCov (kernelRun0_A.sl.HS0_10 (F := Ideal) c arg1 harg1 x0)
            (Rect.unit (s := S1032x1024) ![128 * k, 0] ![130, 1024] inbe).toLoadRect))
        (k0_pay21 (arg3.view.readCov (kernelRun0_A.sl.HS0_10 (F := Ideal) c arg1 harg1 x0)
            (Rect.unit (s := S1032x1024) ![1 + 128 * k, 0] ![128, 1024] inbc).toLoadRect)
          (arg3.view.readCov (kernelRun0_A.sl.HS0_10 (F := Ideal) c arg1 harg1 x0)
            (Rect.unit (s := S1032x1024) ![128 * k, 0] ![130, 1024] inbe).toLoadRect)) x
      = haloAt ⊥ (nmB x0) ((Rect.unit (s := S1032x1024) ![1 + 128 * k, 0] ![128, 1024] inbc).emb x) := by
  obtain ⟨p, q, rfl⟩ : ∃ (p : Fin 128) (q : Fin 1024), x = ix2 p q := ⟨x 0, x 1, eq_ix2 x⟩
  rw [Chunk.nms_chunk_apply (xpB x0) (128 * k) _ _ (fun p q => by
        rw [load_rows c arg1 harg1 arg3 x0 (1 + 128 * k) 128 (by omega) inbc p q, if_pos (by have := p.isLt; omega)]
        congr 1; omega)
      (fun p q => load_rows c arg1 harg1 arg3 x0 (128 * k) 130 (by omega) inbe p q) p q]
  unfold haloAt
  show _ = if 1 ≤ 1 + 128 * k + 1 * p.val ∧ 1 + 128 * k + 1 * p.val ≤ 1024
      then nmB x0 (1 + 128 * k + 1 * p.val - 1) (0 + 1 * q.val) else ⊥
  rw [if_pos (by have := p.isLt; omega), Nat.one_mul, Nat.one_mul, Nat.zero_add]
  congr 1; omega

/-! ## The border rows and the cover -/

/-- The rows of −∞ stored above and below the product plane. -/
theorem border_lo (x : (⟨2, ![1, 1024]⟩ : Shape).Idx) : k0_pay4 (F := Ideal) x = (⊥ : EReal) := by
  show shapeCast S1x1024 (broadcast S1x1024 (Named.named (F := Ideal) κ "neg_big" (φ := .f32) 0xFF333332#32))
    shapeCasts_S1x1024_S1x1024 x = ⊥
  rw [shapeCast_self, broadcast_apply]
  exact Chunk.neg_big_eq

theorem border_hi (x : (⟨2, ![1, 1024]⟩ : Shape).Idx) : k0_pay5 (F := Ideal) x = (⊥ : EReal) := by
  show shapeCast S1x1024 (broadcast S1x1024 (Named.named (F := Ideal) κ "neg_big" (φ := .f32) 0xFF333332#32))
    shapeCasts_S1x1024_S1x1024 x = ⊥
  rw [shapeCast_self, broadcast_apply]
  exact Chunk.neg_big_eq

/-- An index whose row lies in a box of whole rows is in the box. -/
theorem mem_rows (y : S1032x1024.Idx) (off n : ℕ)
    (inb : ∀ a, (![off, 0] : Fin 2 → Nat) a + (![n, 1024] : Fin 2 → Nat) a ≤ S1032x1024.size a)
    (h : off ≤ (y 0).val ∧ (y 0).val < off + n) :
    y ∈ (Rect.unit (s := S1032x1024) ![off, 0] ![n, 1024] inb).set := by
  rw [Rect.mem_set_unit]
  intro a
  have hy1 : (y 1).val < 1024 := (y 1).isLt
  match a with
  | ⟨0, _⟩ => exact h
  | ⟨1, _⟩ => show 0 ≤ (y 1).val ∧ (y 1).val < 0 + 1024; omega

/-! ## The buffer after the second pass -/

/-- What the ten stores into the second buffer leave, at every row they cover. -/
theorem canonNMS (c : Dev nD) (arg1 : Memref sig .tc .vmem S1x2x1024x1024 .f32) (harg1 : arg1.IsWhole)
    (arg3 : Memref sig .tc .vmem S1032x1024 .f32)
    (x0 : Vec Ideal S1x2x1024x1024 .f32) (y : S1032x1024.Idx) (hy : (y 0).val ≤ 1025) :
    View.canon (kernelRun0_A.sl.HS1_10 (F := Ideal) c arg1 harg1 arg3 x0) y = haloAt ⊥ (nmB x0) y := by
  refine View.canon_apply_of_pieces (Val := Elt Ideal) (S := S1032x1024) (e := .f32) (haloAt ⊥ (nmB x0)) _ ?_ y ?_
  · -- every store's payload is the block of the bordered product plane its rows name
    unfold kernelRun0_A.sl.HS1_10
    intro p hp
    simp only [List.mem_cons, List.not_mem_nil, or_false] at hp
    rcases hp with rfl | rfl | rfl | rfl | rfl | rfl | rfl | rfl | rfl | rfl
    · -- rows 897 … 1024
      intro x
      unfold kernelRun0_A.sl.r_17 kernelRun0_A.sl.r_18 kernelRun0_A.sl.v476 kernelRun0_A.sl.v477
      show k0_pay45 (F := Ideal) (k0_pay43 _ _) (k0_pay44 _ _) x = _
      rw [cut7]
      exact chunk_piece c arg1 harg1 arg3 x0 7 (by omega) _ _ x
    · -- rows 769 … 896
      intro x
      unfold kernelRun0_A.sl.r_16 kernelRun0_A.sl.v424 kernelRun0_A.sl.v425
      show k0_pay41 (F := Ideal) (k0_pay40 _ _ kernelRun0_A.sl.cst_94) x = _
      rw [cut6]
      exact chunk_piece c arg1 harg1 arg3 x0 6 (by omega) _ _ x
    · -- rows 641 … 768
      intro x
      unfold kernelRun0_A.sl.r_14 kernelRun0_A.sl.r_15 kernelRun0_A.sl.v372 kernelRun0_A.sl.v373
      show k0_pay39 (F := Ideal) _ (k0_pay35 _) k0_pay36 (k0_pay37 _ _) k0_pay38 x = _
      rw [cut5]
      exact chunk_piece c arg1 harg1 arg3 x0 5 (by omega) _ _ x
    · -- rows 513 … 640
      intro x
      unfold kernelRun0_A.sl.r_11 kernelRun0_A.sl.r_12 kernelRun0_A.sl.r_13 kernelRun0_A.sl.v320 kernelRun0_A.sl.v321
      show k0_pay34 (F := Ideal) _ (k0_pay31 _) (k0_pay32 _ _) (k0_pay33 _ _) x = _
      rw [cut4]
      exact chunk_piece c arg1 harg1 arg3 x0 4 (by omega) _ _ x
    · -- rows 385 … 512
      intro x
      unfold kernelRun0_A.sl.r_9 kernelRun0_A.sl.r_10 kernelRun0_A.sl.v268 kernelRun0_A.sl.v269
      show k0_pay30 (F := Ideal) _ (k0_pay28 _) (k0_pay29 _ _) x = _
      rw [cut3]
      exact chunk_piece c arg1 harg1 arg3 x0 3 (by omega) _ _ x
    · -- rows 257 … 384
      intro x
      unfold kernelRun0_A.sl.r_6 kernelRun0_A.sl.r_7 kernelRun0_A.sl.r_8 kernelRun0_A.sl.v216 kernelRun0_A.sl.v217
      show k0_pay27 (F := Ideal) _ (k0_pay23 _) (k0_pay24 _ _) (k0_pay25 _ _) k0_pay26 x = _
      rw [cut2]
      exact chunk_piece c arg1 harg1 arg3 x0 2 (by omega) _ _ x
    · -- rows 129 … 256
      intro x
      unfold kernelRun0_A.sl.r_4 kernelRun0_A.sl.r_5 kernelRun0_A.sl.v164 kernelRun0_A.sl.v165
      exact chunk_piece c arg1 harg1 arg3 x0 1 (by omega) _ _ x
    · -- rows 1 … 128
      intro x
      unfold kernelRun0_A.sl.r_3 kernelRun0_A.sl.v112 kernelRun0_A.sl.v113
      show k0_pay18 (F := Ideal) (k0_pay17 _ _ kernelRun0_A.sl.cst_94) x = _
      rw [cut0]
      exact chunk_piece c arg1 harg1 arg3 x0 0 (by omega) _ _ x
    · -- row 1025
      intro x
      show k0_pay5 (F := Ideal) x = haloAt ⊥ (nmB x0) ((Rect.unit (s := S1032x1024) ![1025, 0] ![1, 1024] inb_S1032x1024_S1x1024_1025_0).emb x)
      rw [border_hi]
      unfold haloAt
      rw [if_neg]
      show ¬ (1 ≤ 1025 + 1 * (x 0).val ∧ 1025 + 1 * (x 0).val ≤ 1024)
      omega
    · -- row 0
      intro x
      have hx : (x 0).val < 1 := (x 0).isLt
      show k0_pay4 (F := Ideal) x = haloAt ⊥ (nmB x0) ((Rect.unit (s := S1032x1024) ![0, 0] ![1, 1024] inb_S1032x1024_S1x1024_0_0).emb x)
      rw [border_lo]
      unfold haloAt
      rw [if_neg]
      show ¬ (1 ≤ 0 + 1 * (x 0).val ∧ 0 + 1 * (x 0).val ≤ 1024)
      omega
  · -- the ten boxes of rows cover rows 0 … 1025
    unfold kernelRun0_A.sl.HS1_10
    have hcases : (y 0).val = 0 ∨ (1 ≤ (y 0).val ∧ (y 0).val < 129) ∨ (129 ≤ (y 0).val ∧ (y 0).val < 257)
        ∨ (257 ≤ (y 0).val ∧ (y 0).val < 385) ∨ (385 ≤ (y 0).val ∧ (y 0).val < 513)
        ∨ (513 ≤ (y 0).val ∧ (y 0).val < 641) ∨ (641 ≤ (y 0).val ∧ (y 0).val < 769)
        ∨ (769 ≤ (y 0).val ∧ (y 0).val < 897) ∨ (897 ≤ (y 0).val ∧ (y 0).val < 1025) ∨ (y 0).val = 1025 := by omega
    rcases hcases with h | h | h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
      exact mem_rows y 0 1 inb_S1032x1024_S1x1024_0_0 (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      exact mem_rows y 1 128 inb_S1032x1024_S128x1024_1_0 (by omega)
    · refine ⟨_, List.mem_cons_of_mem _ (List.mem_cons_of_mem _ (List.mem_cons_of_mem _ (List.mem_cons_of_mem _ (List.mem_cons_of_mem _ (List.mem_cons_of_mem _ (List.mem_cons_self)))))), ?_⟩
      exact mem_rows y 129 128 inb_S1032x1024_S128x1024_129_0 (by omega)
    · refine ⟨_, List.mem_cons_of_mem _ (List.mem_cons_of_mem _ (List.mem_cons_of_mem _ (List.mem_cons_of_mem _ (List.mem_cons_of_mem _ (List.mem_cons_self))))), ?_⟩
      exact mem_rows y 257 128 inb_S1032x1024_S128x1024_257_0 (by omega)
    · refine ⟨_, List.mem_cons_of_mem _ (List.mem_cons_of_mem _ (List.mem_cons_of_mem _ (List.mem_cons_of_mem _ (List.mem_cons_self)))), ?_⟩
      exact mem_rows y 385 128 inb_S1032x1024_S128x1024_385_0 (by omega)
    · refine ⟨_, List.mem_cons_of_mem _ (List.mem_cons_of_mem _ (List.mem_cons_of_mem _ (List.mem_cons_self))), ?_⟩
      exact mem_rows y 513 128 inb_S1032x1024_S128x1024_513_0 (by omega)
    · refine ⟨_, List.mem_cons_of_mem _ (List.mem_cons_of_mem _ (List.mem_cons_self)), ?_⟩
      exact mem_rows y 641 128 inb_S1032x1024_S128x1024_641_0 (by omega)
    · refine ⟨_, List.mem_cons_of_mem _ (List.mem_cons_self), ?_⟩
      exact mem_rows y 769 128 inb_S1032x1024_S128x1024_769_0 (by omega)
    · refine ⟨_, List.mem_cons_self, ?_⟩
      exact mem_rows y 897 128 inb_S1032x1024_S128x1024_897_0 (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
      exact mem_rows y 1025 1 inb_S1032x1024_S1x1024_1025_0 (by omega)

/-- So a load of the second buffer after the second pass, through a box of rows at most 1025, reads `nms` with its border. -/
theorem loadNMS (c : Dev nD) (arg1 : Memref sig .tc .vmem S1x2x1024x1024 .f32) (harg1 : arg1.IsWhole)
    (arg3 arg4 : Memref sig .tc .vmem S1032x1024 .f32) (x0 : Vec Ideal S1x2x1024x1024 .f32)
    (B : LoadRect S1032x1024) (hB : ∀ j : B.shape.Idx, ((B.idx j) 0).val ≤ 1025) :
    arg4.view.readCov (kernelRun0_A.sl.HS1_10 (F := Ideal) c arg1 harg1 arg3 x0) B
      = fun j => haloAt ⊥ (nmB x0) (B.idx j) := by
  rw [View.readCov_eq_canon']
  funext j
  exact canonNMS c arg1 harg1 arg3 x0 (B.idx j) (hB j)

end Cert.KernelIdeal.ScratchNMS

end
-- ==== Proof.BlockOut.lean ====
/-
  What one grid point leaves in the output's staging buffer: eight stores of 128 rows, chunk `k` holding
  rows `128 k … 128 k + 127` of `xp · m9`, where `m9` is the 3 × 3 window maximum of `nms` with −∞
  outside the image.  Together they are the stencil of the block's two planes.
-/
import proofs.«130109_j38654705664677_1_alg».proof.Proof.Gen.KernelIdeal.Frame
import proofs.«130109_j38654705664677_1_alg».proof.Proof.ChunkOps
import proofs.«130109_j38654705664677_1_alg».proof.Proof.ScratchXP
import proofs.«130109_j38654705664677_1_alg».proof.Proof.ScratchNMS
import Idealize.ShloMosaic.Lib.Pipeline.Value

set_option maxRecDepth 16384

noncomputable section

namespace Cert.KernelIdeal.BlockOut

open Cert.KernelIdeal Cert.KernelIdeal.Gen Cert.Stencil Cert.KernelIdeal.ScratchXP Cert.KernelIdeal.ScratchNMS
open Idealize.ShloMosaic Idealize.ShloMosaic.TcCoe Idealize.SL.Sem Idealize.ShloMosaic.ValueIdx

/-! All eight chunks of the third pass are one and the same vector expression of the centre block and the 130 rows
    around it: pad a column of −∞ left and right, take the nine-fold maximum over the window, multiply by the
    centre. -/

theorem pay1_eq (ctr : Vec Ideal S128x1024 .f32) (ext : Vec Ideal S130x1024 .f32) :
    k0_pay1 (F := Ideal) ctr ext kernelRun0_A.sl.cst_240 = k0_pay46 ctr ext := rfl
theorem pay47_eq (ctr : Vec Ideal S128x1024 .f32) (ext : Vec Ideal S130x1024 .f32) :
    k0_pay47 (F := Ideal) ctr ext kernelRun0_A.sl.cst_240 = k0_pay46 ctr ext := rfl
theorem pay52_eq (ctr : Vec Ideal S128x1024 .f32) (ext : Vec Ideal S130x1024 .f32) :
    k0_pay52 (F := Ideal) ctr ext kernelRun0_A.sl.cst_240 = k0_pay46 ctr ext := rfl
theorem pay51_eq (ctr : Vec Ideal S128x1024 .f32) (ext : Vec Ideal S130x1024 .f32) :
    k0_pay51 (F := Ideal) ctr ext = k0_pay46 ctr ext := rfl
theorem pay56_eq (ctr : Vec Ideal S128x1024 .f32) (ext : Vec Ideal S130x1024 .f32) :
    k0_pay56 (F := Ideal) ctr ext = k0_pay46 ctr ext := rfl
theorem pay50_eq (ctr : Vec Ideal S128x1024 .f32) (ext : Vec Ideal S130x1024 .f32) :
    k0_pay50 (F := Ideal) ctr (k0_pay48 ext) (k0_pay49 ext) = k0_pay46 ctr ext := rfl
theorem pay55_eq (ctr : Vec Ideal S128x1024 .f32) (ext : Vec Ideal S130x1024 .f32) :
    k0_pay55 (F := Ideal) ctr (k0_pay53 ext) (k0_pay54 ext) = k0_pay46 ctr ext := rfl

/-- An index of a block of one image, one plane, 128 rows is given by its row and column. -/
theorem eq_ix4_00 (x : (⟨4, ![1, 1, 128, 1024]⟩ : Shape).Idx) : x = ix4 0 0 (x 2) (x 3) := by
  have h0 : x 0 = (0 : Fin 1) := Subsingleton.elim (α := Fin 1) _ _
  have h1 : x 1 = (0 : Fin 1) := Subsingleton.elim (α := Fin 1) _ _
  funext a
  match a with
  | ⟨0, _⟩ => exact h0
  | ⟨1, _⟩ => exact h1
  | ⟨2, _⟩ => rfl
  | ⟨3, _⟩ => rfl

/-- One chunk of the third pass: with the centre read from rows `re + 1 …` of the first buffer and the 130 rows
    `re …` of the second, the chunk stored at rows `re …` of the output is the stencil there. -/
theorem out_piece (c : Dev nD) (arg1 : Memref sig .tc .vmem S1x2x1024x1024 .f32) (harg1 : arg1.IsWhole)
    (arg3 arg4 : Memref sig .tc .vmem S1032x1024 .f32) (x0 : Vec Ideal S1x2x1024x1024 .f32)
    (rc re : ℕ) (hrc : rc = re + 1) (hre : re + 128 ≤ 1024)
    (inbC : ∀ a, ![rc, 0] a + S128x1024.size a ≤ S1032x1024.size a)
    (inbE : ∀ a, ![re, 0] a + S130x1024.size a ≤ S1032x1024.size a)
    (inbO : ∀ a, ![0, 0, re, 0] a + ![1, 1, 128, 1024] a ≤ S1x1x1024x1024.size a)
    (x : (Rect.unit (s := S1x1x1024x1024) ![0, 0, re, 0] ![1, 1, 128, 1024] inbO).shape.Idx) :
    k0_pay46 (F := Ideal)
      (arg3.view.readCov (kernelRun0_A.sl.HS0_10 c arg1 harg1 x0) (Rect.unit (s := S1032x1024) ![rc, 0] S128x1024.size inbC).toLoadRect)
      (arg4.view.readCov (kernelRun0_A.sl.HS1_10 c arg1 harg1 arg3 x0) (Rect.unit (s := S1032x1024) ![re, 0] S130x1024.size inbE).toLoadRect) x
    = outAt (plane4 x0 0 0) (plane4 x0 0 1)
        ((Rect.unit (s := S1x1x1024x1024) ![0, 0, re, 0] ![1, 1, 128, 1024] inbO).emb x 2).val
        ((Rect.unit (s := S1x1x1024x1024) ![0, 0, re, 0] ![1, 1, 128, 1024] inbO).emb x 3).val := by
  obtain ⟨p, q, rfl⟩ : ∃ (p : Fin 128) (q : Fin 1024), x = ix4 0 0 p q := ⟨x 2, x 3, eq_ix4_00 x⟩
  have hctr : ∀ (p : Fin 128) (q : Fin 1024),
      (arg3.view.readCov (kernelRun0_A.sl.HS0_10 (F := Ideal) c arg1 harg1 x0)
        (Rect.unit (s := S1032x1024) ![rc, 0] S128x1024.size inbC).toLoadRect) (ix2 p q) = xpB x0 (re + p.val) q.val := by
    intro p q
    rw [loadXP c arg1 harg1 arg3 x0 _ (fun j => by
      have h := (j 0).isLt
      show rc + 1 * (j 0).val ≤ 1025
      have h' : (j 0).val < 128 := h
      omega)]
    show haloAt 0 (xpB x0) _ = _
    unfold haloAt
    have e0 : (((Rect.unit (s := S1032x1024) ![rc, 0] S128x1024.size inbC).toLoadRect.idx (ix2 p q)) 0).val = rc + p.val := by
      show rc + 1 * p.val = _; rw [Nat.one_mul]
    have e1 : (((Rect.unit (s := S1032x1024) ![rc, 0] S128x1024.size inbC).toLoadRect.idx (ix2 p q)) 1).val = q.val := by
      show 0 + 1 * q.val = _; rw [Nat.one_mul, Nat.zero_add]
    rw [e0, e1, if_pos (by omega)]
    congr 1; omega
  have hext : ∀ (p : Fin 130) (q : Fin 1024),
      (arg4.view.readCov (kernelRun0_A.sl.HS1_10 (F := Ideal) c arg1 harg1 arg3 x0)
        (Rect.unit (s := S1032x1024) ![re, 0] S130x1024.size inbE).toLoadRect) (ix2 p q)
        = if 1 ≤ re + p.val ∧ re + p.val ≤ 1024 then nmB x0 (re + p.val - 1) q.val else ⊥ := by
    intro p q
    rw [loadNMS c arg1 harg1 arg3 arg4 x0 _ (fun j => by
      have h := (j 0).isLt
      show re + 1 * (j 0).val ≤ 1025
      have h' : (j 0).val < 130 := h
      omega)]
    show haloAt ⊥ (nmB x0) _ = _
    unfold haloAt
    have e0 : (((Rect.unit (s := S1032x1024) ![re, 0] S130x1024.size inbE).toLoadRect.idx (ix2 p q)) 0).val = re + p.val := by
      show re + 1 * p.val = _; rw [Nat.one_mul]
    have e1 : (((Rect.unit (s := S1032x1024) ![re, 0] S130x1024.size inbE).toLoadRect.idx (ix2 p q)) 1).val = q.val := by
      show 0 + 1 * q.val = _; rw [Nat.one_mul, Nat.zero_add]
    rw [e0, e1]
  rw [Chunk.out_chunk_apply (xpB x0) (nmB x0) re _ _ hctr hext p q]
  show _ = outAt _ _ (re + 1 * p.val) (0 + 1 * q.val)
  rw [Nat.one_mul, Nat.one_mul, Nat.zero_add]
  rfl

/-- The output block of a grid point is the stencil of the point's input block. -/
theorem out_block (c : Dev nD) (i : grid0.Coords) (arg1 : Memref sig .tc .vmem S1x2x1024x1024 .f32) (harg1 : arg1.IsWhole)
    (arg2 : Memref sig .tc .vmem S1x1x1024x1024 .f32) (harg2 : arg2.IsWhole)
    (arg3 : Memref sig .tc .vmem S1032x1024 .f32) (harg3 : arg3.IsWhole)
    (arg4 : Memref sig .tc .vmem S1032x1024 .f32) (harg4 : arg4.IsWhole)
    (x0 : Vec Ideal S1x2x1024x1024 .f32) :
    out0_A_1 (F := Ideal) c i arg1 harg1 arg2 harg2 arg3 harg3 arg4 harg4 x0
      = fun y => outAt (plane4 x0 0 0) (plane4 x0 0 1) (y 2).val (y 3).val := by
  unfold out0_A_1
  rw [View.read_writes_eq_canon _ _ _ (cover0_A_1 c i arg1 harg1 arg2 harg2 arg3 harg3 arg4 harg4 x0)]
  funext y
  refine View.canon_apply_of_pieces (Val := Elt Ideal) (S := S1x1x1024x1024) (e := .f32)
    (fun y => outAt (plane4 x0 0 0) (plane4 x0 0 1) (y 2).val (y 3).val) _ ?_ y
    (cover0_A_1 c i arg1 harg1 arg2 harg2 arg3 harg3 arg4 harg4 x0 y)
  unfold kernelRun0_A
  dsimp only
  intro p hp
  simp only [List.mem_cons, List.not_mem_nil, or_false] at hp
  rcases hp with rfl | rfl | rfl | rfl | rfl | rfl | rfl | rfl
  · intro x
    exact (congrFun (pay1_eq _ _) x).trans
      (out_piece c arg1 harg1 arg3 arg4 x0 897 896 rfl (by norm_num)
        inb_S1032x1024_S128x1024_897_0 inb_S1032x1024_S130x1024_896_0 inb_S1x1x1024x1024_S1x1x128x1024_0_0_896_0 x)
  · intro x
    exact (congrFun (pay56_eq _ _) x).trans
      (out_piece c arg1 harg1 arg3 arg4 x0 769 768 rfl (by norm_num)
        inb_S1032x1024_S128x1024_769_0 inb_S1032x1024_S130x1024_768_0 inb_S1x1x1024x1024_S1x1x128x1024_0_0_768_0 x)
  · intro x
    exact (congrFun (pay55_eq (kernelRun0_A.sl.v372 c arg1 harg1 arg3 x0)
        (kernelRun0_A.sl.v674 c arg1 harg1 arg3 arg4 x0)) x).trans
      (out_piece c arg1 harg1 arg3 arg4 x0 641 640 rfl (by norm_num)
        inb_S1032x1024_S128x1024_641_0 inb_S1032x1024_S130x1024_640_0 inb_S1x1x1024x1024_S1x1x128x1024_0_0_640_0 x)
  · intro x
    exact (congrFun (pay52_eq _ _) x).trans
      (out_piece c arg1 harg1 arg3 arg4 x0 513 512 rfl (by norm_num)
        inb_S1032x1024_S128x1024_513_0 inb_S1032x1024_S130x1024_512_0 inb_S1x1x1024x1024_S1x1x128x1024_0_0_512_0 x)
  · intro x
    exact (congrFun (pay51_eq _ _) x).trans
      (out_piece c arg1 harg1 arg3 arg4 x0 385 384 rfl (by norm_num)
        inb_S1032x1024_S128x1024_385_0 inb_S1032x1024_S130x1024_384_0 inb_S1x1x1024x1024_S1x1x128x1024_0_0_384_0 x)
  · intro x
    exact (congrFun (pay50_eq (kernelRun0_A.sl.v216 c arg1 harg1 arg3 x0)
        (kernelRun0_A.sl.v587 c arg1 harg1 arg3 arg4 x0)) x).trans
      (out_piece c arg1 harg1 arg3 arg4 x0 257 256 rfl (by norm_num)
        inb_S1032x1024_S128x1024_257_0 inb_S1032x1024_S130x1024_256_0 inb_S1x1x1024x1024_S1x1x128x1024_0_0_256_0 x)
  · intro x
    exact (congrFun (pay47_eq _ _) x).trans
      (out_piece c arg1 harg1 arg3 arg4 x0 129 128 rfl (by norm_num)
        inb_S1032x1024_S128x1024_129_0 inb_S1032x1024_S130x1024_128_0 inb_S1x1x1024x1024_S1x1x128x1024_0_0_128_0 x)
  · intro x
    exact out_piece c arg1 harg1 arg3 arg4 x0 1 0 rfl (by norm_num)
        inb_S1032x1024_S128x1024_1_0 inb_S1032x1024_S130x1024_0_0 inb_S1x1x1024x1024_S1x1x128x1024_0_0_0_0 x

end Cert.KernelIdeal.BlockOut

end
-- ==== Proof.ArrayOut.lean ====
/-
  From blocks to the array.  Grid point `t` stages image `t` of the input (both planes, whole) and writes back
  image `t` of the output; what it writes is the stencil of the staged block, and the block's planes are image
  `t`'s planes of the argument array.  The sixteen blocks cover the output array, so after the run the output
  array is the stencil of the argument array, image by image.
-/
import proofs.«130109_j38654705664677_1_alg».proof.Proof.Gen.KernelIdeal.Value
import proofs.«130109_j38654705664677_1_alg».proof.Proof.BlockOut
import Idealize.ShloMosaic.Lib.Pipeline.Value

set_option maxRecDepth 16384

noncomputable section

namespace Cert.KernelIdeal.ArrayOut

open Cert.KernelIdeal Cert.KernelIdeal.Gen Cert.Stencil
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument array as core `c` finds it, as a function of its index. -/
abbrev argArr (c : Dev nD) : S16x2x1024x1024.Idx → EReal := V m c main_arg0

/-- Both windows' block index at point `t` is `(t, 0, 0, 0)`: decided over the sixteen points. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

theorem t_lt (t : Fin cfg0.N) : t.val < 16 := lt_of_lt_of_eq t.isLt N_0

/-- Plane `ch` of the block staged at point `t` is plane `ch` of image `t` of the argument array. -/
theorem plane_blk (c : Dev nD) (t : Fin cfg0.N) (ch : Fin 2) :
    plane4 (n := 1) (iblk m c 0 t) 0 ch = plane4 (n := 16) (argArr m c) ⟨t.val, t_lt t⟩ ch := by
  obtain ⟨e0, e1, e2, e3, -, -, -, -⟩ := idx_facts t
  funext r q
  unfold plane4
  by_cases h : r < 1024 ∧ q < 1024
  · rw [dif_pos h, dif_pos h]
    show V m c main_arg0 (((cfg0.win 0).blk t).view.emb (ix4 0 ch ⟨r, h.1⟩ ⟨q, h.2⟩)) = V m c main_arg0 (ix4 ⟨t.val, t_lt t⟩ ch ⟨r, h.1⟩ ⟨q, h.2⟩)
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 2 + 1 * ch.val = ch.val; omega
    | ⟨2, _⟩ => show win0_0.index t (2 : Fin 4) * 1024 + 1 * r = r; omega
    | ⟨3, _⟩ => show win0_0.index t (3 : Fin 4) * 1024 + 1 * q = q; omega
  · rw [dif_neg h, dif_neg h]

/-- What point `t` writes back is block `t` of the stencil of the argument array. -/
theorem flushed_eq (c : Dev nD) (t : Fin cfg0.N) :
    (dats m 0 c).flushed 1 t = ((cfg0.win 1).blk t).view.read (Elt Ideal) (G (n := 16) (argArr m c)) := by
  rw [Cert.KernelIdeal.Value.flushed1_A, Cert.KernelIdeal.BlockOut.out_block]
  obtain ⟨-, -, -, -, e0, e1, e2, e3⟩ := idx_facts t
  funext j
  show outAt (plane4 (n := 1) (iblk m c 0 t) 0 0) (plane4 (n := 1) (iblk m c 0 t) 0 1) (j 2).val (j 3).val
      = G (n := 16) (argArr m c) (((cfg0.win 1).blk t).view.emb j)
  rw [plane_blk m c t 0, plane_blk m c t 1]
  unfold G
  have h0 : ((((cfg0.win 1).blk t).view.emb j) 0).val = t.val := by
    show win0_1.index t (0 : Fin 4) * 1 + 1 * (j 0).val = t.val
    have hj : (j 0).val < 1 := (j 0).isLt
    omega
  have h2 : ((((cfg0.win 1).blk t).view.emb j) 2).val = (j 2).val := by
    show win0_1.index t (2 : Fin 4) * 1024 + 1 * (j 2).val = (j 2).val
    omega
  have h3 : ((((cfg0.win 1).blk t).view.emb j) 3).val = (j 3).val := by
    show win0_1.index t (3 : Fin 4) * 1024 + 1 * (j 3).val = (j 3).val
    omega
  have hb : (⟨((((cfg0.win 1).blk t).view.emb j) 0).val, ((((cfg0.win 1).blk t).view.emb j) 0).isLt⟩ : Fin 16) = ⟨t.val, t_lt t⟩ :=
    Fin.ext h0
  rw [hb, h2, h3]

/-- An index of the output array is in point `t`'s block iff each coordinate is in the block's range on its axis. -/
theorem mem_blk (t : Fin cfg0.N) (i : S16x1x1024x1024.Idx) :
    i ∈ ((cfg0.win 1).blk t).view.set ↔ ∀ a : Fin 4, win0_1.index t a * S1x1x1024x1024.size a ≤ (i a).val
      ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- Every index of the output array lies in the block of the point its image coordinate names. -/
theorem cover (i : S16x1x1024x1024.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 1024 := (i 2).isLt
  have hi3 : (i 3).val < 1024 := (i 3).isLt
  have hN : (i 0).val < cfg0.N := lt_of_lt_of_eq hi0 N_0.symm
  refine ⟨⟨(i 0).val, hN⟩, flush0_1 _, ?_⟩
  rw [mem_blk]
  obtain ⟨-, -, -, -, e0', e1, e2, e3⟩ := idx_facts ⟨(i 0).val, hN⟩
  have e0 : win0_1.index ⟨(i 0).val, hN⟩ (0 : Fin 4) = (i 0).val := e0'
  clear e0'
  intro a
  match a with
  | ⟨0, _⟩ => show win0_1.index _ (0 : Fin 4) * 1 ≤ (i 0).val ∧ (i 0).val < win0_1.index _ (0 : Fin 4) * 1 + 1; omega
  | ⟨1, _⟩ => show win0_1.index _ (1 : Fin 4) * 1 ≤ (i 1).val ∧ (i 1).val < win0_1.index _ (1 : Fin 4) * 1 + 1; omega
  | ⟨2, _⟩ => show win0_1.index _ (2 : Fin 4) * 1024 ≤ (i 2).val ∧ (i 2).val < win0_1.index _ (2 : Fin 4) * 1024 + 1024; omega
  | ⟨3, _⟩ => show win0_1.index _ (3 : Fin 4) * 1024 ≤ (i 3).val ∧ (i 3).val < win0_1.index _ (3 : Fin 4) * 1024 + 1024; omega

/-- The output array after the run is the stencil of the argument array. -/
theorem final (c : Dev nD) : (dats m 0 c).arrAt 1 cfg0.N = G (n := 16) (argArr m c) :=
  (dats m 0 c).arrAt_eq_of_cover 1 (G (n := 16) (argArr m c)) (fun t _ => flushed_eq m c t) cover

/-- The kernel's run: the result is the stencil of the argument, the argument unchanged. -/
theorem run : θ_run defs (onTc (τ := τ) (main (F := Ideal))) ⟨m, fun _ => 0, ρ⟩ fun r => ∀ c : Dev nD,
      r.2.mem ((c : Thread nD τ).loc main_v0) = G (n := 16) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.ArrayOut

end
-- ==== Proof.RefRun.lean ====
/-
  The reference program's run, window by window.

  The reference's @main is 96 host operations in two windows (75 and 21).  Each window's operation list is read from
  ANY buffer contents: the buffers the next window (or the result) needs are given as compositions of named stages
  of the argument — the clipped difference `sXp`, its bordered copy `sPad`, the running product of the clipped
  differences to the neighbours, the window maximum, the product with the centre.  The two windows are joined by
  the append laws of running and of folding an operation list, and the run theorem then reads the result buffer
  after every weakly fair execution as `sOut` of the argument's launch contents.

  A dynamic slice takes its three start indices from three literal index buffers; `unaryIndexed3_result'` reads the
  family of their contents as the three-entry vector, so that one rewriting pass reads every operation's result.
-/
import proofs.«130109_j38654705664677_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

section Indexed3
variable {nD : Nat} {τ : Topo} {sig : RefSig} {Val : EltTy → Type}
variable {a y i0 i1 i2 : Ref sig .tc}

/-- An operation indexed by three literal index buffers reads each of them where it stands: the family of the three
    index contents is the three-entry vector of them. -/
theorem unaryIndexed3_result' (T : BufTy)
    (f : a.ty.Contents Val → (Fin 3 → T.Contents Val) → y.ty.Contents Val) (hT ha hix hy) (V : Valuation τ sig Val) :
    (unaryIndexed (τ := τ) a ![i0, i1, i2] T y f hT ha hix hy).result V (no_index (Proc.devRef .tc y))
      = f (V (Proc.devRef .tc a)) (Fin.cons (cast (congrArg (fun U : BufTy => U.Contents Val) (hT 0)) (V (Proc.devRef .tc i0)))
          (Fin.cons (cast (congrArg (fun U : BufTy => U.Contents Val) (hT 1)) (V (Proc.devRef .tc i1)))
            (Fin.cons (cast (congrArg (fun U : BufTy => U.Contents Val) (hT 2)) (V (Proc.devRef .tc i2))) (fun i => i.elim0)))) := by
  rw [unaryIndexed_result]; congr 1; funext k; fin_cases k <;> rfl

end Indexed3

/-- The results of a literal operation list, one simp pass; an operation with three index buffers reads them one by one. -/
macro "results3" : tactic =>
  `(tactic| (simp (disch := decide) only [after_cons, after_nil,
      nullary_result', unary_result', binary_result', reshape_result', unaryIndexed3_result',
      nullary_result_ne', unary_result_ne', binary_result_ne', reshape_result_ne', unaryIndexed_result_ne']))

/-- The clipped, thresholded difference of the two planes of every image (what `main_v7` holds). -/
def sXp (x0 : (⟨S16x2x1024x1024, .f32⟩ : BufTy).Contents (Elt F)) : (⟨S16x1024x1024, .f32⟩ : BufTy).Contents (Elt F) :=
  maximumf (subf (subf (shapeCast _ (extractStridedSlice S16x1x1024x1024 ![0, 1, 0, 0] x0 slices_S16x2x1024x1024_S16x1x1024x1024_0_1_0_0) shapeCasts_S16x1x1024x1024_S16x1024x1024) (shapeCast _ (extractStridedSlice S16x1x1024x1024 ![0, 0, 0, 0] x0 slices_S16x2x1024x1024_S16x1x1024x1024_0_0_0_0) shapeCasts_S16x1x1024x1024_S16x1024x1024)) (broadcastInDim S16x1024x1024 ![] bcast_S_S16x1024x1024 (constant S_ .f32 0x3DCCCCCD#32))) (broadcastInDim S16x1024x1024 ![] bcast_S_S16x1024x1024 (constant S_ .f32 0x00000000#32))

/-- A stack of planes with a one-entry border of the converted integer zero around every plane. -/
def padOf (xp : (⟨S16x1024x1024, .f32⟩ : BufTy).Contents (Elt F)) : (⟨S16x1026x1026, .f32⟩ : BufTy).Contents (Elt F) :=
  pad S16x1026x1026 ![0, 1, 1] ![0, 1, 1] ![0, 0, 0] xp (sitofp .f32 (constantI S_ 32 0#32)) pads_S16x1024x1024_S16x1026x1026_000_110_110 h_S_

/-- The bordered stack read at the window starting at `(a, b, c)`. -/
def dslOf (a b c : BitVec 32) (pd : (⟨S16x1026x1026, .f32⟩ : BufTy).Contents (Elt F)) : (⟨S16x1024x1024, .f32⟩ : BufTy).Contents (Elt F) :=
  Host.dynamicSlice S16x1024x1024 pd (fun k => (((![constantI S_ 32 a, constantI S_ 32 b, constantI S_ 32 c] : Fin 3 → (⟨S_, .i32⟩ : BufTy).Contents (Elt F))) k (Shape.Idx.first h_S_)).toInt) sliceFits_S16x1026x1026_S16x1024x1024

/-- The clipped difference of the centre to the neighbour at offset `(a, b, c)` of the bordered stack. -/
def nbOf (a b c : BitVec 32) (xp : (⟨S16x1024x1024, .f32⟩ : BufTy).Contents (Elt F)) (pd : (⟨S16x1026x1026, .f32⟩ : BufTy).Contents (Elt F)) : (⟨S16x1024x1024, .f32⟩ : BufTy).Contents (Elt F) :=
  maximumf (subf xp (dslOf a b c pd)) (broadcastInDim S16x1024x1024 ![] bcast_S_S16x1024x1024 (constant S_ .f32 0x00000000#32))

/-- The bordered stack of the clipped difference (what `main_v8` holds). -/
def sPad (x0 : (⟨S16x2x1024x1024, .f32⟩ : BufTy).Contents (Elt F)) : (⟨S16x1026x1026, .f32⟩ : BufTy).Contents (Elt F) := padOf (sXp x0)

/-- The running product after the first six neighbours (what `main_v33` holds). -/
def sP6 (x0 : (⟨S16x2x1024x1024, .f32⟩ : BufTy).Contents (Elt F)) : (⟨S16x1024x1024, .f32⟩ : BufTy).Contents (Elt F) :=
  mulf (mulf (mulf (mulf (mulf (mulf ((broadcastInDim S16x1024x1024 ![] bcast_S_S16x1024x1024 (constant S_ .f32 0x3F800000#32))) (nbOf 0#32 0#32 0#32 (sXp x0) (sPad x0))) (nbOf 0#32 0#32 1#32 (sXp x0) (sPad x0))) (nbOf 0#32 0#32 2#32 (sXp x0) (sPad x0))) (nbOf 0#32 1#32 0#32 (sXp x0) (sPad x0))) (nbOf 0#32 1#32 2#32 (sXp x0) (sPad x0))) (nbOf 0#32 2#32 0#32 (sXp x0) (sPad x0))

/-- The difference of the centre to the seventh neighbour, before clipping (what `main_v35` holds). -/
def sD7 (x0 : (⟨S16x2x1024x1024, .f32⟩ : BufTy).Contents (Elt F)) : (⟨S16x1024x1024, .f32⟩ : BufTy).Contents (Elt F) := subf (sXp x0) (dslOf 0#32 2#32 1#32 (sPad x0))

/-- The last stretch as a function of what it reads: the seventh and eighth factors, the scale 256, the 3 × 3 window
    maximum from −∞, the product with the centre, and the unit axis put back. -/
def outOf (xp : (⟨S16x1024x1024, .f32⟩ : BufTy).Contents (Elt F)) (pd : (⟨S16x1026x1026, .f32⟩ : BufTy).Contents (Elt F)) (p6 d7 : (⟨S16x1024x1024, .f32⟩ : BufTy).Contents (Elt F)) : (⟨S16x1x1024x1024, .f32⟩ : BufTy).Contents (Elt F) :=
  broadcastInDim S16x1x1024x1024 ![0, 2, 3] bcast_S16x1024x1024_S16x1x1024x1024_0_2_3
    (mulf xp (Host.reduceWindow FloatOps.maximumf ![1, 3, 3] ![1, 1, 1] ![0, 1, 1] ![0, 1, 1]
      (mulf (mulf (mulf p6 (maximumf d7 (broadcastInDim S16x1024x1024 ![] bcast_S_S16x1024x1024 (constant S_ .f32 0x00000000#32)))) (nbOf 0#32 2#32 2#32 xp pd)) (broadcastInDim S16x1024x1024 ![] bcast_S_S16x1024x1024 (constant S_ .f32 0x43800000#32)))
      (broadcastInDim S_ ![] bcast_S_S_ (constant S_ .f32 0xFF800000#32))
      reduceWindows_S16x1024x1024_S16x1024x1024_w1s1p0_0_w3s1p1_1_w3s1p1_1 h_S_))

/-- The product of the eight clipped differences to the centre, times 256 (what `main_v43` holds). -/
def sNms (x0 : (⟨S16x2x1024x1024, .f32⟩ : BufTy).Contents (Elt F)) : (⟨S16x1024x1024, .f32⟩ : BufTy).Contents (Elt F) :=
  mulf (mulf (mulf (mulf (mulf (mulf (mulf (mulf (mulf ((broadcastInDim S16x1024x1024 ![] bcast_S_S16x1024x1024 (constant S_ .f32 0x3F800000#32))) (nbOf 0#32 0#32 0#32 (sXp x0) (sPad x0))) (nbOf 0#32 0#32 1#32 (sXp x0) (sPad x0))) (nbOf 0#32 0#32 2#32 (sXp x0) (sPad x0))) (nbOf 0#32 1#32 0#32 (sXp x0) (sPad x0))) (nbOf 0#32 1#32 2#32 (sXp x0) (sPad x0))) (nbOf 0#32 2#32 0#32 (sXp x0) (sPad x0))) (nbOf 0#32 2#32 1#32 (sXp x0) (sPad x0))) (nbOf 0#32 2#32 2#32 (sXp x0) (sPad x0))) (broadcastInDim S16x1024x1024 ![] bcast_S_S16x1024x1024 (constant S_ .f32 0x43800000#32))

/-- The 3 × 3 window maximum of that, from −∞ (what `main_v45` holds). -/
def sMax (x0 : (⟨S16x2x1024x1024, .f32⟩ : BufTy).Contents (Elt F)) : (⟨S16x1024x1024, .f32⟩ : BufTy).Contents (Elt F) :=
  Host.reduceWindow FloatOps.maximumf ![1, 3, 3] ![1, 1, 1] ![0, 1, 1] ![0, 1, 1] (sNms x0)
    (broadcastInDim S_ ![] bcast_S_S_ (constant S_ .f32 0xFF800000#32))
    reduceWindows_S16x1024x1024_S16x1024x1024_w1s1p0_0_w3s1p1_1_w3s1p1_1 h_S_

/-- The reference's result as a function of its argument (what `main_v47` holds). -/
def sOut (x0 : (⟨S16x2x1024x1024, .f32⟩ : BufTy).Contents (Elt F)) : (⟨S16x1x1024x1024, .f32⟩ : BufTy).Contents (Elt F) :=
  broadcastInDim S16x1x1024x1024 ![0, 2, 3] bcast_S16x1024x1024_S16x1x1024x1024_0_2_3 (mulf (sXp x0) (sMax x0))

/-- The last stretch applied to the first stretch's four values is the whole composition. -/
theorem outOf_stages (x0 : (⟨S16x2x1024x1024, .f32⟩ : BufTy).Contents (Elt F)) : outOf (F := F) (sXp x0) (sPad x0) (sP6 x0) (sD7 x0) = sOut x0 := rfl

/-- The operations of @main's first window (75): the clipped difference, its bordered copy, six neighbour factors and
    the seventh difference. -/
abbrev opsP0 : List (HloOp τ sig (Elt F)) :=
  [ unary main_arg0 main_v0 ((extractStridedSlice S16x1x1024x1024 ![0, 1, 0, 0] · slices_S16x2x1024x1024_S16x1x1024x1024_0_1_0_0) : (⟨S16x2x1024x1024, .f32⟩ : BufTy).Contents (Elt F) → (⟨S16x1x1024x1024, .f32⟩ : BufTy).Contents (Elt F)),
    reshape main_v0 main_v1 rfl shapeCasts_S16x1x1024x1024_S16x1024x1024,
    unary main_arg0 main_v2 ((extractStridedSlice S16x1x1024x1024 ![0, 0, 0, 0] · slices_S16x2x1024x1024_S16x1x1024x1024_0_0_0_0) : (⟨S16x2x1024x1024, .f32⟩ : BufTy).Contents (Elt F) → (⟨S16x1x1024x1024, .f32⟩ : BufTy).Contents (Elt F)),
    reshape main_v2 main_v3 rfl shapeCasts_S16x1x1024x1024_S16x1024x1024,
    binary main_v1 main_v3 main_v4 (subf : (⟨S16x1024x1024, .f32⟩ : BufTy).Contents (Elt F) → (⟨S16x1024x1024, .f32⟩ : BufTy).Contents (Elt F) → (⟨S16x1024x1024, .f32⟩ : BufTy).Contents (Elt F)),
    nullary main_cst (constant S_ .f32 0x3DCCCCCD#32),
    unary main_cst main_v5 (broadcastInDim S16x1024x1024 ![] bcast_S_S16x1024x1024 : (⟨S_, .f32⟩ : BufTy).Contents (Elt F) → (⟨S16x1024x1024, .f32⟩ : BufTy).Contents (Elt F)),
    binary main_v4 main_v5 main_v6 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x1024x1024, .f32⟩) main_call0_v0) (broadcastInDim S16x1024x1024 ![] bcast_S_S16x1024x1024),
    TRef.binary (TRef.of (T := ⟨S16x1024x1024, .f32⟩) main_v6) (TRef.of (T := ⟨S16x1024x1024, .f32⟩) main_call0_v0) (TRef.of (T := ⟨S16x1024x1024, .f32⟩) main_v7) maximumf,
    nullary main_c (constantI S_ 32 0#32),
    TRef.unary (TRef.of (T := ⟨S_, .i32⟩) main_c) (TRef.of (T := ⟨S_, .f32⟩) main_call1_v0) (sitofp .f32),
    TRef.binary (TRef.of (T := ⟨S16x1024x1024, .f32⟩) main_v7) (TRef.of (T := ⟨S_, .f32⟩) main_call1_v0) (TRef.of (T := ⟨S16x1026x1026, .f32⟩) main_v8) (fun x v => pad S16x1026x1026 ![0, 1, 1] ![0, 1, 1] ![0, 0, 0] x v pads_S16x1024x1024_S16x1026x1026_000_110_110 h_S_),
    nullary main_cst_0 (constant S_ .f32 0x3F800000#32),
    unary main_cst_0 main_v9 (broadcastInDim S16x1024x1024 ![] bcast_S_S16x1024x1024 : (⟨S_, .f32⟩ : BufTy).Contents (Elt F) → (⟨S16x1024x1024, .f32⟩ : BufTy).Contents (Elt F)),
    nullary main_c_1 (constantI S_ 32 0#32),
    nullary main_c_2 (constantI S_ 32 0#32),
    nullary main_c_3 (constantI S_ 32 0#32),
    unaryIndexed main_v8 ![main_c_1, main_c_2, main_c_3] ⟨S_, .i32⟩ main_v10 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v10 main_v11 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x1024x1024, .f32⟩) main_call2_v0) (broadcastInDim S16x1024x1024 ![] bcast_S_S16x1024x1024),
    TRef.binary (TRef.of (T := ⟨S16x1024x1024, .f32⟩) main_v11) (TRef.of (T := ⟨S16x1024x1024, .f32⟩) main_call2_v0) (TRef.of (T := ⟨S16x1024x1024, .f32⟩) main_v12) maximumf,
    binary main_v9 main_v12 main_v13 (mulf : (⟨S16x1024x1024, .f32⟩ : BufTy).Contents (Elt F) → (⟨S16x1024x1024, .f32⟩ : BufTy).Contents (Elt F) → (⟨S16x1024x1024, .f32⟩ : BufTy).Contents (Elt F)),
    nullary main_c_4 (constantI S_ 32 0#32),
    nullary main_c_5 (constantI S_ 32 0#32),
    nullary main_c_6 (constantI S_ 32 1#32),
    unaryIndexed main_v8 ![main_c_4, main_c_5, main_c_6] ⟨S_, .i32⟩ main_v14 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v14 main_v15 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x1024x1024, .f32⟩) main_call3_v0) (broadcastInDim S16x1024x1024 ![] bcast_S_S16x1024x1024),
    TRef.binary (TRef.of (T := ⟨S16x1024x1024, .f32⟩) main_v15) (TRef.of (T := ⟨S16x1024x1024, .f32⟩) main_call3_v0) (TRef.of (T := ⟨S16x1024x1024, .f32⟩) main_v16) maximumf,
    binary main_v13 main_v16 main_v17 (mulf : (⟨S16x1024x1024, .f32⟩ : BufTy).Contents (Elt F) → (⟨S16x1024x1024, .f32⟩ : BufTy).Contents (Elt F) → (⟨S16x1024x1024, .f32⟩ : BufTy).Contents (Elt F)),
    nullary main_c_7 (constantI S_ 32 0#32),
    nullary main_c_8 (constantI S_ 32 0#32),
    nullary main_c_9 (constantI S_ 32 2#32),
    unaryIndexed main_v8 ![main_c_7, main_c_8, main_c_9] ⟨S_, .i32⟩ main_v18 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v18 main_v19 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x1024x1024, .f32⟩) main_call4_v0) (broadcastInDim S16x1024x1024 ![] bcast_S_S16x1024x1024),
    TRef.binary (TRef.of (T := ⟨S16x1024x1024, .f32⟩) main_v19) (TRef.of (T := ⟨S16x1024x1024, .f32⟩) main_call4_v0) (TRef.of (T := ⟨S16x1024x1024, .f32⟩) main_v20) maximumf,
    binary main_v17 main_v20 main_v21 (mulf : (⟨S16x1024x1024, .f32⟩ : BufTy).Contents (Elt F) → (⟨S16x1024x1024, .f32⟩ : BufTy).Contents (Elt F) → (⟨S16x1024x1024, .f32⟩ : BufTy).Contents (Elt F)),
    nullary main_c_10 (constantI S_ 32 0#32),
    nullary main_c_11 (constantI S_ 32 1#32),
    nullary main_c_12 (constantI S_ 32 0#32),
    unaryIndexed main_v8 ![main_c_10, main_c_11, main_c_12] ⟨S_, .i32⟩ main_v22 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v22 main_v23 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x1024x1024, .f32⟩) main_call5_v0) (broadcastInDim S16x1024x1024 ![] bcast_S_S16x1024x1024),
    TRef.binary (TRef.of (T := ⟨S16x1024x1024, .f32⟩) main_v23) (TRef.of (T := ⟨S16x1024x1024, .f32⟩) main_call5_v0) (TRef.of (T := ⟨S16x1024x1024, .f32⟩) main_v24) maximumf,
    binary main_v21 main_v24 main_v25 (mulf : (⟨S16x1024x1024, .f32⟩ : BufTy).Contents (Elt F) → (⟨S16x1024x1024, .f32⟩ : BufTy).Contents (Elt F) → (⟨S16x1024x1024, .f32⟩ : BufTy).Contents (Elt F)),
    nullary main_c_13 (constantI S_ 32 0#32),
    nullary main_c_14 (constantI S_ 32 1#32),
    nullary main_c_15 (constantI S_ 32 2#32),
    unaryIndexed main_v8 ![main_c_13, main_c_14, main_c_15] ⟨S_, .i32⟩ main_v26 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v26 main_v27 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x1024x1024, .f32⟩) main_call6_v0) (broadcastInDim S16x1024x1024 ![] bcast_S_S16x1024x1024),
    TRef.binary (TRef.of (T := ⟨S16x1024x1024, .f32⟩) main_v27) (TRef.of (T := ⟨S16x1024x1024, .f32⟩) main_call6_v0) (TRef.of (T := ⟨S16x1024x1024, .f32⟩) main_v28) maximumf,
    binary main_v25 main_v28 main_v29 (mulf : (⟨S16x1024x1024, .f32⟩ : BufTy).Contents (Elt F) → (⟨S16x1024x1024, .f32⟩ : BufTy).Contents (Elt F) → (⟨S16x1024x1024, .f32⟩ : BufTy).Contents (Elt F)),
    nullary main_c_16 (constantI S_ 32 0#32),
    nullary main_c_17 (constantI S_ 32 2#32),
    nullary main_c_18 (constantI S_ 32 0#32),
    unaryIndexed main_v8 ![main_c_16, main_c_17, main_c_18] ⟨S_, .i32⟩ main_v30 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v30 main_v31 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x1024x1024, .f32⟩) main_call7_v0) (broadcastInDim S16x1024x1024 ![] bcast_S_S16x1024x1024),
    TRef.binary (TRef.of (T := ⟨S16x1024x1024, .f32⟩) main_v31) (TRef.of (T := ⟨S16x1024x1024, .f32⟩) main_call7_v0) (TRef.of (T := ⟨S16x1024x1024, .f32⟩) main_v32) maximumf,
    binary main_v29 main_v32 main_v33 (mulf : (⟨S16x1024x1024, .f32⟩ : BufTy).Contents (Elt F) → (⟨S16x1024x1024, .f32⟩ : BufTy).Contents (Elt F) → (⟨S16x1024x1024, .f32⟩ : BufTy).Contents (Elt F)),
    nullary main_c_19 (constantI S_ 32 0#32),
    nullary main_c_20 (constantI S_ 32 2#32),
    nullary main_c_21 (constantI S_ 32 1#32),
    unaryIndexed main_v8 ![main_c_19, main_c_20, main_c_21] ⟨S_, .i32⟩ main_v34 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v34 main_v35 (subf : (⟨S16x1024x1024, .f32⟩ : BufTy).Contents (Elt F) → (⟨S16x1024x1024, .f32⟩ : BufTy).Contents (Elt F) → (⟨S16x1024x1024, .f32⟩ : BufTy).Contents (Elt F)) ]

set_option maxRecDepth 8192 in
set_option maxHeartbeats 4000000 in
theorem main_part0_eq (c : Dev nD) : main_part0 (F := F) c = seq opsP0 := rfl

set_option maxRecDepth 8192 in
theorem opsP0_sub : (opsP0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub ..⟩

set_option maxRecDepth 8192 in
theorem opsP0_fresh : (opsP0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
theorem P0_arg0 (V : Valuation τ sig (Elt F)) :
    after opsP0 V (Proc.devRef .tc main_arg0) = V (Proc.devRef .tc main_arg0) := by
  results3

set_option maxRecDepth 8192 in
set_option maxHeartbeats 4000000 in
theorem P0_v7 (V : Valuation τ sig (Elt F)) :
    after opsP0 V (Proc.devRef .tc main_v7) = sXp (F := F) (V (Proc.devRef .tc main_arg0)) := by
  results3
  rfl

set_option maxRecDepth 8192 in
set_option maxHeartbeats 4000000 in
theorem P0_v8 (V : Valuation τ sig (Elt F)) :
    after opsP0 V (Proc.devRef .tc main_v8) = sPad (F := F) (V (Proc.devRef .tc main_arg0)) := by
  results3
  rfl

set_option maxRecDepth 8192 in
set_option maxHeartbeats 4000000 in
theorem P0_v33 (V : Valuation τ sig (Elt F)) :
    after opsP0 V (Proc.devRef .tc main_v33) = sP6 (F := F) (V (Proc.devRef .tc main_arg0)) := by
  results3
  rfl

set_option maxRecDepth 8192 in
set_option maxHeartbeats 4000000 in
theorem P0_v35 (V : Valuation τ sig (Elt F)) :
    after opsP0 V (Proc.devRef .tc main_v35) = sD7 (F := F) (V (Proc.devRef .tc main_arg0)) := by
  results3
  rfl

/-- The operations of @main's second window (21). -/
abbrev opsP1 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S16x1024x1024, .f32⟩) main_call8_v0) (broadcastInDim S16x1024x1024 ![] bcast_S_S16x1024x1024),
    TRef.binary (TRef.of (T := ⟨S16x1024x1024, .f32⟩) main_v35) (TRef.of (T := ⟨S16x1024x1024, .f32⟩) main_call8_v0) (TRef.of (T := ⟨S16x1024x1024, .f32⟩) main_v36) maximumf,
    binary main_v33 main_v36 main_v37 (mulf : (⟨S16x1024x1024, .f32⟩ : BufTy).Contents (Elt F) → (⟨S16x1024x1024, .f32⟩ : BufTy).Contents (Elt F) → (⟨S16x1024x1024, .f32⟩ : BufTy).Contents (Elt F)),
    nullary main_c_22 (constantI S_ 32 0#32),
    nullary main_c_23 (constantI S_ 32 2#32),
    nullary main_c_24 (constantI S_ 32 2#32),
    unaryIndexed main_v8 ![main_c_22, main_c_23, main_c_24] ⟨S_, .i32⟩ main_v38 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v38 main_v39 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x1024x1024, .f32⟩) main_call9_v0) (broadcastInDim S16x1024x1024 ![] bcast_S_S16x1024x1024),
    TRef.binary (TRef.of (T := ⟨S16x1024x1024, .f32⟩) main_v39) (TRef.of (T := ⟨S16x1024x1024, .f32⟩) main_call9_v0) (TRef.of (T := ⟨S16x1024x1024, .f32⟩) main_v40) maximumf,
    binary main_v37 main_v40 main_v41 (mulf : (⟨S16x1024x1024, .f32⟩ : BufTy).Contents (Elt F) → (⟨S16x1024x1024, .f32⟩ : BufTy).Contents (Elt F) → (⟨S16x1024x1024, .f32⟩ : BufTy).Contents (Elt F)),
    nullary main_cst_25 (constant S_ .f32 0x43800000#32),
    unary main_cst_25 main_v42 (broadcastInDim S16x1024x1024 ![] bcast_S_S16x1024x1024 : (⟨S_, .f32⟩ : BufTy).Contents (Elt F) → (⟨S16x1024x1024, .f32⟩ : BufTy).Contents (Elt F)),
    binary main_v41 main_v42 main_v43 (mulf : (⟨S16x1024x1024, .f32⟩ : BufTy).Contents (Elt F) → (⟨S16x1024x1024, .f32⟩ : BufTy).Contents (Elt F) → (⟨S16x1024x1024, .f32⟩ : BufTy).Contents (Elt F)),
    nullary main_cst_26 (constant S_ .f32 0xFF800000#32),
    unary main_cst_26 main_v44 (broadcastInDim S_ ![] bcast_S_S_ : (⟨S_, .f32⟩ : BufTy).Contents (Elt F) → (⟨S_, .f32⟩ : BufTy).Contents (Elt F)),
    binary main_v43 main_v44 main_v45 ((fun x v => Host.reduceWindow FloatOps.maximumf ![1, 3, 3] ![1, 1, 1] ![0, 1, 1] ![0, 1, 1] x v reduceWindows_S16x1024x1024_S16x1024x1024_w1s1p0_0_w3s1p1_1_w3s1p1_1 h_S_) : (⟨S16x1024x1024, .f32⟩ : BufTy).Contents (Elt F) → (⟨S_, .f32⟩ : BufTy).Contents (Elt F) → (⟨S16x1024x1024, .f32⟩ : BufTy).Contents (Elt F)),
    binary main_v7 main_v45 main_v46 (mulf : (⟨S16x1024x1024, .f32⟩ : BufTy).Contents (Elt F) → (⟨S16x1024x1024, .f32⟩ : BufTy).Contents (Elt F) → (⟨S16x1024x1024, .f32⟩ : BufTy).Contents (Elt F)),
    unary main_v46 main_v47 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)) ]

set_option maxRecDepth 8192 in
set_option maxHeartbeats 4000000 in
theorem main_part1_eq (c : Dev nD) : main_part1 (F := F) c = seq opsP1 := rfl

theorem opsP1_sub : (opsP1 : List (HloOp τ sig (Elt F))).Forall fun op => op.bufs ⊆ tcRefs τ sig :=
  ⟨nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub ..⟩

theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxRecDepth 8192 in
set_option maxHeartbeats 4000000 in
theorem P1_arg0 (V : Valuation τ sig (Elt F)) :
    after opsP1 V (Proc.devRef .tc main_arg0) = V (Proc.devRef .tc main_arg0) := by
  results3

set_option maxRecDepth 8192 in
set_option maxHeartbeats 4000000 in
theorem P1_v47 (V : Valuation τ sig (Elt F)) :
    after opsP1 V (Proc.devRef .tc main_v47) = outOf (F := F) (V (Proc.devRef .tc main_v7)) (V (Proc.devRef .tc main_v8)) (V (Proc.devRef .tc main_v33)) (V (Proc.devRef .tc main_v35)) := by
  results3
  rfl

/-- @main's 96 operations, in order: the two windows. -/
abbrev ops : List (HloOp τ sig (Elt F)) := opsP0 ++ opsP1

theorem main_eq (c : Dev nD) : main (F := F) c = seq ops := by
  rw [show (ops : List (HloOp τ sig (Elt F))) = opsP0 ++ opsP1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp opsP0_sub op h, List.forall_iff_forall_mem.mp opsP1_sub op h]

theorem ops_fresh : ∀ op ∈ (ops : List (HloOp τ sig (Elt F))), op.fresh = ∅ := fun op h => by
  simp only [ops, List.mem_append] at h
  rcases h with h | h
  exacts [List.forall_iff_forall_mem.mp opsP0_fresh op h, List.forall_iff_forall_mem.mp opsP1_fresh op h]

/-- The result buffer after all the operations, from any contents: the composition of stages at the argument. -/
theorem after_ops_v47 (V : Valuation τ sig (Elt F)) :
    after ops V (Proc.devRef .tc main_v47) = sOut (F := F) (V (Proc.devRef .tc main_arg0)) := by
  rw [show (ops : List (HloOp τ sig (Elt F))) = opsP0 ++ opsP1 from rfl, StableHlo.after_append, P1_v47, P0_v7, P0_v8, P0_v33, P0_v35]
  exact outOf_stages _

/-- The argument is never written. -/
theorem after_ops_arg0 (V : Valuation τ sig (Elt F)) :
    after ops V (Proc.devRef .tc main_arg0) = V (Proc.devRef .tc main_arg0) := by
  rw [show (ops : List (HloOp τ sig (Elt F))) = opsP0 ++ opsP1 from rfl, StableHlo.after_append, P1_arg0, P0_arg0]

/-- On every device, for any float values, from any memory with zero counters: every weakly fair execution of
    @main terminates with the result buffer at the composition of stages of the argument's launch contents, and
    the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = sOut (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v47).trans (after_ops_v47 _), (h c main_arg0).trans (after_ops_arg0 _)⟩)
    (run_seq scopedRefs_eq scopedSems_eq defs main (fun _ => ops) main_eq (fun _ => ops_sub) m ρ (fun _ => ops_fresh))

end Cert.ReferenceIdeal.RefRun

end
-- ==== Proof.RefIsStencilLib.lean ====
/-
  Three readings of array operations at an explicit entry, over the shapes of this stencil: an array of
  16 planes of 1024 × 1024 entries surrounded by a one-entry border, a 1024 × 1024 block of the bordered
  array taken at a start (0, i, j), and the fold of a 1 × 3 × 3 window of maxima in row-major order.
  Each is stated against the plane functions of the shared specification (padAt, max9At).
-/
import proofs.«130109_j38654705664677_1_alg».proof.Proof.StencilSpec
import Idealize.ShloMosaic.PureOps.Contract
import Idealize.ShloMosaic.Lib.KernelVsHost
import Idealize.ShloMosaic.Lib.DynamicIndex
import Idealize.ShloMosaic.Lib.Pipeline.Value

noncomputable section

namespace Cert.ReferenceIdeal.RefValue

open Idealize.ShloMosaic Idealize.ShloMosaic.ValueIdx Cert.Stencil

/-- Sixteen planes of 1024 × 1024 entries. -/
abbrev SIn : Shape := ⟨3, ![16, 1024, 1024]⟩
/-- The same planes with a border of one entry on each side of rows and columns. -/
abbrev SPad : Shape := ⟨3, ![16, 1026, 1026]⟩
/-- The window: one plane, three rows, three columns. -/
abbrev W33 : Shape := ⟨3, ![1, 3, 3]⟩

/-! ## The bordered array -/

/-- If plane b of y is f, then plane b of y bordered by z is padAt z f:
    entry (R, Q) with 1 ≤ R, Q ≤ 1024 is f (R − 1) (Q − 1), every other entry is z. -/
theorem pad_read {u : Shape} (y : SIn.Idx → EReal) (v : u.Idx → EReal)
    (hp : SIn.Pads (![0, 1, 1] : Fin 3 → Nat) ![0, 1, 1] ![0, 0, 0] SPad)
    (hu : 0 < u.numel) (z : EReal) (hz : v (Shape.Idx.first hu) = z) (f : Plane) (b : Fin 16)
    (hy : ∀ r q : Fin 1024, y (ix3 b r q) = f r.val q.val) (R Q : Fin 1026) :
    pad SPad ![0, 1, 1] ![0, 1, 1] ![0, 0, 0] y v hp hu (ix3 b R Q) = padAt z f R.val Q.val := by
  unfold padAt
  by_cases hQ : 1 ≤ Q.val ∧ Q.val ≤ 1024
  · by_cases hR : 1 ≤ R.val ∧ R.val ≤ 1024
    · rw [if_pos hQ, if_pos hR]
      refine (pad_apply_of_inside _ _ _ y v hp hu (ix3 b R Q)
        (ix3 b (⟨R.val - 1, by omega⟩ : Fin 1024) (⟨Q.val - 1, by omega⟩ : Fin 1024)) (fun a => match a with
        | ⟨0, _⟩ => by show b.val = 0 + b.val * (0 + 1); omega
        | ⟨1, _⟩ => by show R.val = 1 + (R.val - 1) * (0 + 1); omega
        | ⟨2, _⟩ => by show Q.val = 1 + (Q.val - 1) * (0 + 1); omega)).trans ?_
      exact hy _ _
    · rw [if_pos hQ, if_neg hR]
      refine (pad_apply_of_not_inside _ _ _ y v hp hu (ix3 b R Q) (1 : Fin 3) ?_).trans hz
      show ¬(1 ≤ R.val ∧ (R.val - 1) % (0 + 1) = 0 ∧ (R.val - 1) / (0 + 1) < 1024)
      omega
  · rw [if_neg hQ]
    refine (pad_apply_of_not_inside _ _ _ y v hp hu (ix3 b R Q) (2 : Fin 3) ?_).trans hz
    show ¬(1 ≤ Q.val ∧ (Q.val - 1) % (0 + 1) = 0 ∧ (Q.val - 1) / (0 + 1) < 1024)
    omega

/-! ## A block of the bordered array -/

/-- The 16 × 1024 × 1024 block of the bordered array at the start (0, i, j), i, j ≤ 2 (so the block lies
    inside and no start is moved): entry (b, r, q) of the block is entry (b, r + i, q + j). -/
theorem dslice_read {α : Type} (y : SPad.Idx → α) (start : Fin 3 → Int) (h : SPad.Slices (fun _ => 0) SIn)
    (i j : ℕ) (hi : i ≤ 2) (hj : j ≤ 2) (h0 : start 0 = 0) (h1 : start 1 = (i : Int)) (h2 : start 2 = (j : Int))
    (b : Fin 16) (r q : Fin 1024) :
    Host.dynamicSlice SIn y start h (ix3 b r q)
      = y (ix3 b (⟨r.val + i, by omega⟩ : Fin 1026) (⟨q.val + j, by omega⟩ : Fin 1026)) := by
  have hoff : SPad.Slices (![0, i, j] : Fin 3 → Nat) SIn := ⟨rfl, fun a => match a with
    | ⟨0, _⟩ => by show 0 + 16 ≤ 16; omega
    | ⟨1, _⟩ => by show i + 1024 ≤ 1026; omega
    | ⟨2, _⟩ => by show j + 1024 ≤ 1026; omega⟩
  rw [Host.dynamicSlice_eq_extractStridedSlice SIn y start ![0, i, j] h hoff (fun a => match a with
    | ⟨0, _⟩ => by show start 0 = ((0 : ℕ) : Int); rw [h0]; rfl
    | ⟨1, _⟩ => h1
    | ⟨2, _⟩ => h2)]
  exact extractStridedSlice_apply _ y hoff (ix3 b r q) _ (fun a => match a with
    | ⟨0, _⟩ => by show b.val = 0 + b.val; omega
    | ⟨1, _⟩ => by show r.val + i = i + r.val; omega
    | ⟨2, _⟩ => by show q.val + j = j + q.val; omega)

/-! ## The 3 × 3 window of maxima -/

theorem W33_numel : W33.numel = 9 := by decide

/-- A fold over the positions below m is the fold over the positions below n when m = n. -/
theorem foldl_finRange_cast {α : Type} {m n : ℕ} (h : m = n) (g : α → Fin m → α) (v : α) :
    (List.finRange m).foldl g v = (List.finRange n).foldl (fun r k => g r (k.cast h.symm)) v := by
  subst h; rfl

/-- A left fold over nine positions, written out. -/
theorem foldl_finRange_nine {α : Type} (g : α → Fin 9 → α) (v : α) :
    (List.finRange 9).foldl g v = g (g (g (g (g (g (g (g (g v 0) 1) 2) 3) 4) 5) 6) 7) 8 := by
  rfl

/-- Position k = 3 i + j of the 1 × 3 × 3 window, in row-major order, is (0, i, j). -/
theorem W33_symm (k : Fin 9) (i j : ℕ) (hi : i < 3) (hj : j < 3) (hk : k.val = 3 * i + j) :
    W33.rowMajor.symm (k.cast W33_numel.symm) = ix3 (0 : Fin 1) (⟨i, hi⟩ : Fin 3) (⟨j, hj⟩ : Fin 3) := by
  rw [Equiv.symm_apply_eq]
  apply Fin.ext
  rw [Shape.rowMajor_val_three]
  show k.val = ((0 * 3 + i) * 3 + j)
  omega

/-- One window position p = (b, R, Q) in bordered coordinates: inside the image the array's entry
    (R − 1, Q − 1) of plane b, outside it −∞ — which is padAt ⊥ at (R, Q). -/
theorem cell_read (y : SIn.Idx → EReal) (nm : Plane) (b : Fin 16)
    (hy : ∀ r q : Fin 1024, y (ix3 b r q) = nm r.val q.val) (p : Fin 3 → ℕ) (R Q : ℕ)
    (hp0 : p 0 = b.val) (hp1 : p 1 = R) (hp2 : p 2 = Q)
    (inst : Decidable (∀ a : Fin 3, (![0, 1, 1] : Fin 3 → ℕ) a ≤ p a ∧ p a - (![0, 1, 1] : Fin 3 → ℕ) a < SIn.size a)) :
    @dite EReal (∀ a : Fin 3, (![0, 1, 1] : Fin 3 → ℕ) a ≤ p a ∧ p a - (![0, 1, 1] : Fin 3 → ℕ) a < SIn.size a) inst
      (fun hin => y (fun a => ⟨p a - (![0, 1, 1] : Fin 3 → ℕ) a, (hin a).2⟩)) (fun _ => ⊥) = padAt ⊥ nm R Q := by
  unfold padAt
  by_cases hin : ∀ a : Fin 3, (![0, 1, 1] : Fin 3 → ℕ) a ≤ p a ∧ p a - (![0, 1, 1] : Fin 3 → ℕ) a < SIn.size a
  · rw [dif_pos hin]
    have h1 : 1 ≤ p 1 ∧ p 1 - 1 < 1024 := hin 1
    have h2 : 1 ≤ p 2 ∧ p 2 - 1 < 1024 := hin 2
    rw [if_pos (by omega), if_pos (by omega)]
    have hk : (fun a => (⟨p a - (![0, 1, 1] : Fin 3 → ℕ) a, (hin a).2⟩ : SIn.Coord a))
        = ix3 b (⟨R - 1, by omega⟩ : Fin 1024) (⟨Q - 1, by omega⟩ : Fin 1024) := by
      funext a
      match a with
      | ⟨0, _⟩ => exact Fin.ext (by show p 0 - 0 = b.val; omega)
      | ⟨1, _⟩ => exact Fin.ext (by show p 1 - 1 = R - 1; omega)
      | ⟨2, _⟩ => exact Fin.ext (by show p 2 - 1 = Q - 1; omega)
    exact (congrArg y hk).trans (hy _ _)
  · rw [dif_neg hin]
    by_cases hQ : 1 ≤ Q ∧ Q ≤ 1024
    · by_cases hR : 1 ≤ R ∧ R ≤ 1024
      · exfalso
        apply hin
        intro a
        match a with
        | ⟨0, _⟩ => show 0 ≤ p 0 ∧ p 0 - 0 < 16; have := b.isLt; omega
        | ⟨1, _⟩ => show 1 ≤ p 1 ∧ p 1 - 1 < 1024; omega
        | ⟨2, _⟩ => show 1 ≤ p 2 ∧ p 2 - 1 < 1024; omega
      · rw [if_pos hQ, if_neg hR]
    · rw [if_neg hQ]

/-- Window position k = 3 i + j read for the output entry (b, r, q), window stride one, border one:
    the bordered plane at (r + i, q + j). -/
theorem cell_at (y : SIn.Idx → EReal) (nm : Plane) (b : Fin 16)
    (hy : ∀ r q : Fin 1024, y (ix3 b r q) = nm r.val q.val) (r q : Fin 1024) (hc : (3 : ℕ) = 3) (k : Fin 9)
    (i j : ℕ) (hi : i < 3) (hj : j < 3) (hk : k.val = 3 * i + j) (R Q : ℕ) (hR : r.val + i = R) (hQ : q.val + j = Q)
    (inst : Decidable (∀ a : Fin 3, (![0, 1, 1] : Fin 3 → ℕ) a ≤ ((ix3 b r q : SIn.Idx) (Fin.cast hc a)).val * (![1, 1, 1] : Fin 3 → ℕ) a
          + (W33.rowMajor.symm (k.cast W33_numel.symm) a).val ∧
        ((ix3 b r q : SIn.Idx) (Fin.cast hc a)).val * (![1, 1, 1] : Fin 3 → ℕ) a
          + (W33.rowMajor.symm (k.cast W33_numel.symm) a).val - (![0, 1, 1] : Fin 3 → ℕ) a < SIn.size a)) :
    @dite EReal (∀ a : Fin 3, (![0, 1, 1] : Fin 3 → ℕ) a ≤ ((ix3 b r q : SIn.Idx) (Fin.cast hc a)).val * (![1, 1, 1] : Fin 3 → ℕ) a
          + (W33.rowMajor.symm (k.cast W33_numel.symm) a).val ∧
        ((ix3 b r q : SIn.Idx) (Fin.cast hc a)).val * (![1, 1, 1] : Fin 3 → ℕ) a
          + (W33.rowMajor.symm (k.cast W33_numel.symm) a).val - (![0, 1, 1] : Fin 3 → ℕ) a < SIn.size a) inst
      (fun hin => y (fun a => ⟨((ix3 b r q : SIn.Idx) (Fin.cast hc a)).val * (![1, 1, 1] : Fin 3 → ℕ) a
          + (W33.rowMajor.symm (k.cast W33_numel.symm) a).val - (![0, 1, 1] : Fin 3 → ℕ) a, (hin a).2⟩)) (fun _ => ⊥)
      = padAt ⊥ nm R Q := by
  refine cell_read y nm b hy (fun a => ((ix3 b r q : SIn.Idx) (Fin.cast hc a)).val * (![1, 1, 1] : Fin 3 → ℕ) a
          + (W33.rowMajor.symm (k.cast W33_numel.symm) a).val) R Q ?_ ?_ ?_ inst
  all_goals (show _ * _ + (W33.rowMajor.symm (k.cast W33_numel.symm) _).val = _; rw [W33_symm k i j hi hj hk])
  · show b.val * 1 + 0 = b.val; omega
  · show r.val * 1 + i = R; omega
  · show q.val * 1 + j = Q; omega

/-- If plane b of y is nm, the 1 × 3 × 3 window maximum of y (stride one, border one, from −∞) at
    (b, r, q) is max9At nm r q: the nine bordered entries folded from −∞ in row-major order. -/
theorem window_read {u : Shape} (f : EReal → EReal → EReal) (hf : ∀ a c, f a c = max a c) (y : SIn.Idx → EReal)
    (init : u.Idx → EReal)
    (h : SIn.ReduceWindows (![1, 3, 3] : Fin 3 → Nat) ![1, 1, 1] ![0, 1, 1] ![0, 1, 1] SIn) (hu : 0 < u.numel)
    (hinit : init (Shape.Idx.first hu) = ⊥) (nm : Plane) (b : Fin 16)
    (hy : ∀ r q : Fin 1024, y (ix3 b r q) = nm r.val q.val) (r q : Fin 1024) :
    Host.reduceWindow f ![1, 3, 3] ![1, 1, 1] ![0, 1, 1] ![0, 1, 1] y init h hu (ix3 b r q) = max9At nm r.val q.val := by
  unfold Host.reduceWindow max9At
  dsimp only
  rw [foldl_finRange_cast W33_numel, foldl_finRange_nine, hinit]
  simp only [hf]
  refine congrArg₂ max (congrArg₂ max (congrArg₂ max (congrArg₂ max (congrArg₂ max (congrArg₂ max
    (congrArg₂ max (congrArg₂ max (congrArg₂ max rfl ?_) ?_) ?_) ?_) ?_) ?_) ?_) ?_) ?_
  · exact cell_at y nm b hy r q rfl 0 0 0 (by omega) (by omega) (by decide) r.val q.val (by omega) (by omega) _
  · exact cell_at y nm b hy r q rfl 1 0 1 (by omega) (by omega) (by decide) r.val (q.val + 1) (by omega) (by omega) _
  · exact cell_at y nm b hy r q rfl 2 0 2 (by omega) (by omega) (by decide) r.val (q.val + 2) (by omega) (by omega) _
  · exact cell_at y nm b hy r q rfl 3 1 0 (by omega) (by omega) (by decide) (r.val + 1) q.val (by omega) (by omega) _
  · exact cell_at y nm b hy r q rfl 4 1 1 (by omega) (by omega) (by decide) (r.val + 1) (q.val + 1) (by omega) (by omega) _
  · exact cell_at y nm b hy r q rfl 5 1 2 (by omega) (by omega) (by decide) (r.val + 1) (q.val + 2) (by omega) (by omega) _
  · exact cell_at y nm b hy r q rfl 6 2 0 (by omega) (by omega) (by decide) (r.val + 2) q.val (by omega) (by omega) _
  · exact cell_at y nm b hy r q rfl 7 2 1 (by omega) (by omega) (by decide) (r.val + 2) (q.val + 1) (by omega) (by omega) _
  · exact cell_at y nm b hy r q rfl 8 2 2 (by omega) (by omega) (by decide) (r.val + 2) (q.val + 2) (by omega) (by omega) _

end Cert.ReferenceIdeal.RefValue

end
-- ==== Proof.RefIsStencil.lean ====
/-
  The reference program's result is the stencil G of the shared specification.

  Stage by stage, at an explicit entry (b, r, q) of image b:
    the thresholded difference        is xpAt of the image's two planes,
    its bordered copy                 is padAt 0 of that plane,
    each of the eight shifted blocks  is the bordered plane at (r + i, q + j),
    the running product times 256     is nmsAt,
    the 3 × 3 window maximum          is max9At of nmsAt,
    the final product                 is outAt.
-/
import proofs.«130109_j38654705664677_1_alg».proof.Proof.RefRead
import proofs.«130109_j38654705664677_1_alg».proof.Proof.RefIsStencilLib

noncomputable section

namespace Cert.ReferenceIdeal.RefValue

open Cert.ReferenceIdeal Cert.ReferenceIdeal.Gen Cert.ReferenceIdeal.RefRead Idealize.ShloMosaic
  Idealize.ShloMosaic.ValueIdx Cert.Stencil

/-- The argument: sixteen images of two 1024 × 1024 planes. -/
abbrev Arg : Type := (⟨S16x2x1024x1024, .f32⟩ : BufTy).Contents (Elt Ideal)

/-- The thresholded difference plane of image b. -/
abbrev XP (x : Arg) (b : Fin 16) : Plane := xpAt (plane4 x b 0) (plane4 x b 1)

/-- Inside the image a plane of the argument is the argument's entry. -/
theorem plane4_at (x : Arg) (b : Fin 16) (ch : Fin 2) (r q : Fin 1024) :
    plane4 x b ch r.val q.val = x (ix4 b ch r q) := by
  unfold plane4
  rw [dif_pos ⟨r.isLt, q.isLt⟩]

/-! ## The thresholded difference -/

/-- Dropping the unit axis after taking plane 1: entry (b, r, q) comes from (b, 1, r, q). -/
theorem idx_plane1 (b : Fin 16) (r q : Fin 1024) :
    idx_main_v0 (idx_main_v1 (ix3 b r q)) = ix4 b (1 : Fin 2) r q := by
  funext a
  match a with
  | ⟨0, _⟩ => exact Fin.ext (by show ((b.val * 1024 + r.val) * 1024 + q.val) / 1048576 = b.val; omega)
  | ⟨1, _⟩ => exact Fin.ext (by show 1 + 0 = 1; rfl)
  | ⟨2, _⟩ => exact Fin.ext (by show ((b.val * 1024 + r.val) * 1024 + q.val) / 1024 % 1024 = r.val; omega)
  | ⟨3, _⟩ => exact Fin.ext (by show ((b.val * 1024 + r.val) * 1024 + q.val) % 1024 = q.val; omega)

/-- Dropping the unit axis after taking plane 0: entry (b, r, q) comes from (b, 0, r, q). -/
theorem idx_plane0 (b : Fin 16) (r q : Fin 1024) :
    idx_main_v2 (idx_main_v3 (ix3 b r q)) = ix4 b (0 : Fin 2) r q := by
  funext a
  match a with
  | ⟨0, _⟩ => exact Fin.ext (by show ((b.val * 1024 + r.val) * 1024 + q.val) / 1048576 = b.val; omega)
  | ⟨1, _⟩ => exact Fin.ext (by show 0 = 0; rfl)
  | ⟨2, _⟩ => exact Fin.ext (by show ((b.val * 1024 + r.val) * 1024 + q.val) / 1024 % 1024 = r.val; omega)
  | ⟨3, _⟩ => exact Fin.ext (by show ((b.val * 1024 + r.val) * 1024 + q.val) % 1024 = q.val; omega)

/-- max (x1 − x0 − ε) 0 at (b, r, q). -/
theorem v7_at (x : Arg) (b : Fin 16) (r q : Fin 1024) :
    val_main_v7 (F := Ideal) x (ix3 b r q) = XP x b r.val q.val := by
  rw [val_main_v7_apply, val_main_v6_apply, val_main_v4_apply, val_main_v1_apply, val_main_v0_apply, val_main_v3_apply, val_main_v2_apply, val_main_v5_apply, val_main_cst_apply, val_main_call0_v0_apply, val_main_call0_cst_apply, idx_plane1, idx_plane0]
  show _ = max (plane4 x b 1 r.val q.val - plane4 x b 0 r.val q.val - epsW) zeroW
  rw [plane4_at, plane4_at]
  rfl

/-! ## The bordered copy and its eight shifted blocks -/

/-- The border value, the integer 0 converted, is the real 0. -/
theorem border_zero : val_main_call1_v0 (F := Ideal) (Shape.Idx.first h_S_) = 0 := by
  rw [val_main_call1_v0_apply, val_main_c_apply]
  show (((0#32 : BitVec 32).toInt : ℝ) : EReal) = 0
  simp

theorem v8_at (x : Arg) (b : Fin 16) (R Q : Fin 1026) :
    val_main_v8 (F := Ideal) x (ix3 b R Q) = padAt 0 (XP x b) R.val Q.val := by
  unfold val_main_v8
  exact pad_read _ _ _ _ 0 border_zero (XP x b) b (fun r q => v7_at x b r q) R Q

/-- A block of the bordered copy at a start (0, i, j) with i, j ≤ 2. -/
theorem slice_at (x : Arg) (start : Fin 3 → Int) (i j : ℕ) (hi : i ≤ 2) (hj : j ≤ 2) (h0 : start 0 = 0)
    (h1 : start 1 = (i : Int)) (h2 : start 2 = (j : Int)) (b : Fin 16) (r q : Fin 1024) :
    Host.dynamicSlice S16x1024x1024 (val_main_v8 (F := Ideal) x) start sliceFits_S16x1026x1026_S16x1024x1024 (ix3 b r q)
      = padAt 0 (XP x b) (r.val + i) (q.val + j) :=
  (dslice_read _ start _ i j hi hj h0 h1 h2 b r q).trans (v8_at x b _ _)

theorem v10_at (x : Arg) (b : Fin 16) (r q : Fin 1024) :
    val_main_v10 (F := Ideal) x (ix3 b r q) = padAt 0 (XP x b) r.val q.val :=
  slice_at x _ 0 0 (by omega) (by omega) rfl rfl rfl b r q
theorem v14_at (x : Arg) (b : Fin 16) (r q : Fin 1024) :
    val_main_v14 (F := Ideal) x (ix3 b r q) = padAt 0 (XP x b) r.val (q.val + 1) :=
  slice_at x _ 0 1 (by omega) (by omega) rfl rfl rfl b r q
theorem v18_at (x : Arg) (b : Fin 16) (r q : Fin 1024) :
    val_main_v18 (F := Ideal) x (ix3 b r q) = padAt 0 (XP x b) r.val (q.val + 2) :=
  slice_at x _ 0 2 (by omega) (by omega) rfl rfl rfl b r q
theorem v22_at (x : Arg) (b : Fin 16) (r q : Fin 1024) :
    val_main_v22 (F := Ideal) x (ix3 b r q) = padAt 0 (XP x b) (r.val + 1) q.val :=
  slice_at x _ 1 0 (by omega) (by omega) rfl rfl rfl b r q
theorem v26_at (x : Arg) (b : Fin 16) (r q : Fin 1024) :
    val_main_v26 (F := Ideal) x (ix3 b r q) = padAt 0 (XP x b) (r.val + 1) (q.val + 2) :=
  slice_at x _ 1 2 (by omega) (by omega) rfl rfl rfl b r q
theorem v30_at (x : Arg) (b : Fin 16) (r q : Fin 1024) :
    val_main_v30 (F := Ideal) x (ix3 b r q) = padAt 0 (XP x b) (r.val + 2) q.val :=
  slice_at x _ 2 0 (by omega) (by omega) rfl rfl rfl b r q
theorem v34_at (x : Arg) (b : Fin 16) (r q : Fin 1024) :
    val_main_v34 (F := Ideal) x (ix3 b r q) = padAt 0 (XP x b) (r.val + 2) (q.val + 1) :=
  slice_at x _ 2 1 (by omega) (by omega) rfl rfl rfl b r q
theorem v38_at (x : Arg) (b : Fin 16) (r q : Fin 1024) :
    val_main_v38 (F := Ideal) x (ix3 b r q) = padAt 0 (XP x b) (r.val + 2) (q.val + 2) :=
  slice_at x _ 2 2 (by omega) (by omega) rfl rfl rfl b r q

/-! ## The product over the eight neighbours -/

theorem v43_at (x : Arg) (b : Fin 16) (r q : Fin 1024) :
    val_main_v43 (F := Ideal) x (ix3 b r q) = nmsAt (XP x b) r.val q.val := by
  rw [val_main_v43_apply, val_main_v41_apply, val_main_v37_apply, val_main_v33_apply, val_main_v29_apply, val_main_v25_apply, val_main_v21_apply, val_main_v17_apply, val_main_v13_apply,
    val_main_v12_apply, val_main_v16_apply, val_main_v20_apply, val_main_v24_apply, val_main_v28_apply, val_main_v32_apply, val_main_v36_apply, val_main_v40_apply,
    val_main_v11_apply, val_main_v15_apply, val_main_v19_apply, val_main_v23_apply, val_main_v27_apply, val_main_v31_apply, val_main_v35_apply, val_main_v39_apply,
    v10_at, v14_at, v18_at, v22_at, v26_at, v30_at, v34_at, v38_at, v7_at,
    val_main_v9_apply, val_main_cst_0_apply, val_main_v42_apply, val_main_cst_25_apply,
    val_main_call2_v0_apply, val_main_call2_cst_apply, val_main_call3_v0_apply, val_main_call3_cst_apply, val_main_call4_v0_apply, val_main_call4_cst_apply, val_main_call5_v0_apply, val_main_call5_cst_apply,
    val_main_call6_v0_apply, val_main_call6_cst_apply, val_main_call7_v0_apply, val_main_call7_cst_apply, val_main_call8_v0_apply, val_main_call8_cst_apply, val_main_call9_v0_apply, val_main_call9_cst_apply]
  rfl

/-! ## The window maximum and the result -/

/-- The fold starts from −∞. -/
theorem init_bot : val_main_v44 (F := Ideal) (Shape.Idx.first h_S_) = ⊥ := by
  rw [val_main_v44_apply, val_main_cst_26_apply]
  show Ideal.ofBits .f32 0xFF800000#32 = ⊥
  simp [Ideal.ofBits, Ideal.ieee]

theorem v45_at (x : Arg) (b : Fin 16) (r q : Fin 1024) :
    val_main_v45 (F := Ideal) x (ix3 b r q) = max9At (nmsAt (XP x b)) r.val q.val := by
  unfold val_main_v45
  exact window_read _ (fun _ _ => rfl) _ _ _ _ init_bot (nmsAt (XP x b)) b (fun r q => v43_at x b r q) r q

/-- Entry (b, 0, r, q) of the result reads entry (b, r, q) of the final product. -/
theorem idx_out (b : Fin 16) (c : Fin 1) (r q : Fin 1024) : idx_main_v47 (ix4 b c r q) = ix3 b r q := by
  funext a
  match a with
  | ⟨0, _⟩ => rfl
  | ⟨1, _⟩ => rfl
  | ⟨2, _⟩ => rfl

/-- The reference's result is the stencil of the specification. -/
theorem ref_is_G (x : Arg) : val_main_v47 (F := Ideal) x = G (n := 16) x := by
  funext i
  obtain ⟨b, c, r, q, rfl⟩ : ∃ (b : Fin 16) (c : Fin 1) (r q : Fin 1024), i = ix4 b c r q :=
    ⟨i 0, i 1, i 2, i 3, eq_ix4 i⟩
  rw [val_main_v47_apply, val_main_v46_apply, idx_out, v7_at, v45_at]
  rfl

end Cert.ReferenceIdeal.RefValue

end
-- ==== Proof.lean ====
/-
  The certificate's claims, assembled.

  The kernel computes, per image, a non-maximum-suppression stencil of the thresholded difference of the image's
  two planes: `xp = max (x1 − x0 − ε) 0`, the scaled product `nms` of the clipped differences of `xp` to its
  eight neighbours (zero outside the image), the 3 × 3 window maximum `m9` of `nms` (−∞ outside the image), and
  `xp · m9`.  The reference computes the same with a zero-padded copy, eight shifted slices and a window reduction.
  On the extended reals both are the one function `Cert.Stencil.G` of the argument array: the kernel's side is
  `ArrayOut.run` (chunks → the two 1032-row buffers → the output block → the array), the reference's side is
  `RefValue.ref_is_G` over its run (`RefRun.run`).  No law of arithmetic beyond the operations' own definitions is
  used: the two sides multiply and fold in the same order, and the kernel's finite stand-in for −∞ is read as −∞
  exactly where the reference has −∞ (the border of the window maximum and the fold's starting value), which is
  also what the eighteen ledger entries of the idealization state.  The two kernels' frames are the generated frame runs; the reference's is its run with the result dropped.
-/
import proofs.«130109_j38654705664677_1_alg».proof.Defs
import proofs.«130109_j38654705664677_1_alg».proof.Proof.Gen.Kernel
import proofs.«130109_j38654705664677_1_alg».proof.Proof.Gen.Kernel.Skeleton
import proofs.«130109_j38654705664677_1_alg».proof.Proof.Gen.Kernel.Launch
import proofs.«130109_j38654705664677_1_alg».proof.Proof.Gen.Kernel.Points
import proofs.«130109_j38654705664677_1_alg».proof.Proof.Gen.Kernel.Frame
import proofs.«130109_j38654705664677_1_alg».proof.Proof.Gen.KernelIdeal
import proofs.«130109_j38654705664677_1_alg».proof.Proof.Gen.KernelIdeal.Skeleton
import proofs.«130109_j38654705664677_1_alg».proof.Proof.Gen.KernelIdeal.Launch
import proofs.«130109_j38654705664677_1_alg».proof.Proof.Gen.KernelIdeal.Points
import proofs.«130109_j38654705664677_1_alg».proof.Proof.Gen.KernelIdeal.Frame
import proofs.«130109_j38654705664677_1_alg».proof.Proof.Gen.ReferenceIdeal
import proofs.«130109_j38654705664677_1_alg».proof.Proof.Gen.KernelIdeal.Value
import proofs.«130109_j38654705664677_1_alg».proof.Proof.Gen.Pre_finite_inputs
import proofs.«130109_j38654705664677_1_alg».proof.Proof.ArrayOut
import proofs.«130109_j38654705664677_1_alg».proof.Proof.RefRun
import proofs.«130109_j38654705664677_1_alg».proof.Proof.RefRead
import proofs.«130109_j38654705664677_1_alg».proof.Proof.RefIsStencil
import Idealize.ShloMosaic.Adequacy
import Idealize.ShloMosaic.Init

noncomputable section

namespace Cert.Proof

open Idealize.ShloMosaic Idealize.SL.Sem Cert.Kernel

/-- The word-level kernel runs and leaves its argument as it was: the generated frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- One ledger entry: the table gives the kernel's finite stand-in the value −∞. -/
theorem neg_big_entry : IdealRules.named_const.Statement Cert.KernelIdeal.κ "neg_big" .f32 0xFF333332#32 ⊥ :=
  IdealRules.named_const.statement Cert.KernelIdeal.κ "neg_big" .f32 0xFF333332#32 ⊥ rfl

/-- The idealization rewrote the same constant at eighteen sites (the two border rows of the second buffer, and
    per chunk of the third pass the column padding and the fold's starting value). -/
theorem preserves : Cert.preserves_Kernel_KernelIdeal :=
  ⟨neg_big_entry, neg_big_entry, neg_big_entry, neg_big_entry, neg_big_entry, neg_big_entry, neg_big_entry, neg_big_entry,
   neg_big_entry, neg_big_entry, neg_big_entry, neg_big_entry, neg_big_entry, neg_big_entry, neg_big_entry, neg_big_entry,
   neg_big_entry, neg_big_entry⟩

/-- From memories that agree on the argument, both programs end with the stencil of the argument. -/
theorem algebraic : Cert.algebraic_KernelIdeal_ReferenceIdeal := by
  intro m ρ m' ρ' _ hagree
  refine ⟨fun c => Cert.Stencil.G (n := 16) (m ((c.tc : Thread Cert.KernelIdeal.nD Cert.KernelIdeal.τ).loc Cert.KernelIdeal.main_arg0)),
    Cert.KernelIdeal.ArrayOut.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.val_main_v47_eq, Cert.ReferenceIdeal.RefValue.ref_is_G, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
